-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S64x3 : Shape := ⟨2, ![64, 3]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S64x3 : S_.BroadcastsInDim S64x3 (![] : Fin 0 → Fin S64x3.rank)

variable [Facts]

def fn {F : FTy → Type} [FloatOps F] (main_arg0 : FVec F S1048576x32 .f32) (main_arg1 : IVec S64x3 32) : IVec S64x3 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_c_0 : IVec S_ 32 := constantI S_ 32 0#32
  let main_v4 : IVec S64x3 32 := broadcastInDim S64x3 ![] bcast_S_S64x3 main_c_0
  let main_v5 : IVec S64x3 1 := cmpi .sge main_arg1 main_v4
  let main_v6 : IVec S64x3 1 := broadcastInDim S64x3 ![] bcast_S_S64x3 main_v3
  let main_v7 : IVec S64x3 1 := andi main_v6 main_v5
  let main_c_1 : IVec S_ 32 := constantI S_ 32 32#32
  let main_v8 : IVec S64x3 32 := broadcastInDim S64x3 ![] bcast_S_S64x3 main_c_1
  let main_v9 : IVec S64x3 1 := cmpi .slt main_arg1 main_v8
  let main_v10 : IVec S64x3 1 := andi main_v7 main_v9
  main_v10
-- ==== Kernel.lean ====
abbrev S1048576x32 : Shape := ⟨2, ![1048576, 32]⟩
abbrev S64x3 : Shape := ⟨2, ![64, 3]⟩
abbrev S32 : Shape := ⟨1, ![32]⟩
abbrev S_ : Shape := ⟨0, ![]⟩
abbrev S32x1 : Shape := ⟨2, ![32, 1]⟩
abbrev S64x1 : Shape := ⟨2, ![64, 1]⟩
abbrev S64 : Shape := ⟨1, ![64]⟩
abbrev S1x64 : Shape := ⟨2, ![1, 64]⟩
abbrev S32x64 : Shape := ⟨2, ![32, 64]⟩
abbrev S32x192 : Shape := ⟨2, ![32, 192]⟩
abbrev S32x768 : Shape := ⟨2, ![32, 768]⟩
abbrev S128x768 : Shape := ⟨2, ![128, 768]⟩
abbrev S262144x128 : Shape := ⟨2, ![262144, 128]⟩
abbrev S262144x4 : Shape := ⟨2, ![262144, 4]⟩
abbrev S4096x128 : Shape := ⟨2, ![4096, 128]⟩
abbrev S4096x4 : Shape := ⟨2, ![4096, 4]⟩
abbrev S512x128 : Shape := ⟨2, ![512, 128]⟩
abbrev S512x768 : Shape := ⟨2, ![512, 768]⟩
abbrev S512x192 : Shape := ⟨2, ![512, 192]⟩
abbrev S512x64 : Shape := ⟨2, ![512, 64]⟩
abbrev S512 : Shape := ⟨1, ![512]⟩
abbrev S512x1 : Shape := ⟨2, ![512, 1]⟩
abbrev S512x4 : Shape := ⟨2, ![512, 4]⟩
abbrev S1048576x1 : Shape := ⟨2, ![1048576, 1]⟩

abbrev nBuf : Space → Nat
  | .hbm => 46
  | .vmem => 5
  | .smem => 0
  | _ => 0

abbrev bufTy : (tb : Table) → Fin (tcTables nBuf tb) → BufTy
  | .hbm, ⟨0, _⟩ => ⟨S1048576x32, .f32⟩
  | .hbm, ⟨1, _⟩ => ⟨S64x3, .i32⟩
  | .hbm, ⟨2, _⟩ => ⟨S32, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S64x3, .i32⟩
  | .hbm, ⟨7, _⟩ => ⟨S64x3, .i32⟩
  | .hbm, ⟨8, _⟩ => ⟨S_, .i32⟩
  | .hbm, ⟨9, _⟩ => ⟨S64x3, .i32⟩
  | .hbm, ⟨10, _⟩ => ⟨S64x3, .i32⟩
  | .hbm, ⟨11, _⟩ => ⟨S32x1, .i32⟩
  | .hbm, ⟨12, _⟩ => ⟨S64x1, .i32⟩
  | .hbm, ⟨13, _⟩ => ⟨S64, .i32⟩
  | .hbm, ⟨14, _⟩ => ⟨S1x64, .i32⟩
  | .hbm, ⟨15, _⟩ => ⟨S32x64, .i32⟩
  | .hbm, ⟨16, _⟩ => ⟨S32x64, .i32⟩
  | .hbm, ⟨17, _⟩ => ⟨S32x64, .i1⟩
  | .hbm, ⟨18, _⟩ => ⟨S32x64, .f32⟩
  | .hbm, ⟨19, _⟩ => ⟨S32x1, .i32⟩
  | .hbm, ⟨20, _⟩ => ⟨S64x1, .i32⟩
  | .hbm, ⟨21, _⟩ => ⟨S64, .i32⟩
  | .hbm, ⟨22, _⟩ => ⟨S1x64, .i32⟩
  | .hbm, ⟨23, _⟩ => ⟨S32x64, .i32⟩
  | .hbm, ⟨24, _⟩ => ⟨S32x64, .i32⟩
  | .hbm, ⟨25, _⟩ => ⟨S32x64, .i1⟩
  | .hbm, ⟨26, _⟩ => ⟨S32x64, .f32⟩
  | .hbm, ⟨27, _⟩ => ⟨S32x1, .i32⟩
  | .hbm, ⟨28, _⟩ => ⟨S64x1, .i32⟩
  | .hbm, ⟨29, _⟩ => ⟨S64, .i32⟩
  | .hbm, ⟨30, _⟩ => ⟨S1x64, .i32⟩
  | .hbm, ⟨31, _⟩ => ⟨S32x64, .i32⟩
  | .hbm, ⟨32, _⟩ => ⟨S32x64, .i32⟩
  | .hbm, ⟨33, _⟩ => ⟨S32x64, .i1⟩
  | .hbm, ⟨34, _⟩ => ⟨S32x64, .f32⟩
  | .hbm, ⟨35, _⟩ => ⟨S32x192, .f32⟩
  | .hbm, ⟨36, _⟩ => ⟨S_, .f32⟩
  | .hbm, ⟨37, _⟩ => ⟨S32x192, .f32⟩
  | .hbm, ⟨38, _⟩ => ⟨S32x768, .f32⟩
  | .hbm, ⟨39, _⟩ => ⟨S32x768, .f32⟩
  | .hbm, ⟨40, _⟩ => ⟨S32x768, .f32⟩
  | .hbm, ⟨41, _⟩ => ⟨S32x768, .f32⟩
  | .hbm, ⟨42, _⟩ => ⟨S128x768, .f32⟩
  | .hbm, ⟨43, _⟩ => ⟨S262144x128, .f32⟩
  | .hbm, ⟨44, _⟩ => ⟨S262144x4, .f32⟩
  | .hbm, ⟨45, _⟩ => ⟨S1048576x1, .f32⟩
  | .local _ .vmem, ⟨0, _⟩ => ⟨S4096x128, .f32⟩
  | .local _ .vmem, ⟨1, _⟩ => ⟨S4096x128, .f32⟩
  | .local _ .vmem, ⟨2, _⟩ => ⟨S128x768, .f32⟩
  | .local _ .vmem, ⟨3, _⟩ => ⟨S4096x4, .f32⟩
  | .local _ .vmem, ⟨4, _⟩ => ⟨S4096x4, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c512_i32 : BitVec 32 := 512#32
  let v5 : BitVec 32 := Scalar.muli v4 c512_i32
  v5
def k0_off1 (k0_t1 : Fin k0_t1_loop.trips) : Fin 2 → Nat :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c512_i32 : BitVec 32 := 512#32
  let v5 : BitVec 32 := Scalar.muli v4 c512_i32
  let v6 : BitVec 32 := v5
  let v7 : Index := Scalar.indexCast v6
  let c0_4 : Index := 0#32
  ![v7.toNat, 0]
def k0_off2 (k0_t1 : Fin k0_t1_loop.trips) : Fin 2 → Nat :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c512_i32 : BitVec 32 := 512#32
  let v5 : BitVec 32 := Scalar.muli v4 c512_i32
  let v6 : BitVec 32 := v5
  let v44 : Index := Scalar.indexCast v6
  let c0_9 : Index := 0#32
  ![v44.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x3 : S_.BroadcastsInDim S64x3 (![] : Fin 0 → Fin S64x3.rank)
  bcast_S32_S32x1_0 : S32.BroadcastsInDim S32x1 (![0] : Fin 1 → Fin S32x1.rank)
  slices_S64x3_S64x1_0_0 : S64x3.Slices ![0, 0] S64x1
  shapeCasts_S64x1_S64 : S64x1.ShapeCasts S64
  bcast_S64_S1x64_1 : S64.BroadcastsInDim S1x64 (![1] : Fin 1 → Fin S1x64.rank)
  bcast_S32x1_S32x64_0_1 : S32x1.BroadcastsInDim S32x64 (![0, 1] : Fin 2 → Fin S32x64.rank)
  bcast_S1x64_S32x64_0_1 : S1x64.BroadcastsInDim S32x64 (![0, 1] : Fin 2 → Fin S32x64.rank)
  slices_S64x3_S64x1_0_1 : S64x3.Slices ![0, 1] S64x1
  slices_S64x3_S64x1_0_2 : S64x3.Slices ![0, 2] S64x1
  concatenates_S32x64_S32x64_S32x64_S32x192_d1 : Shape.Concatenates [S32x64, S32x64, S32x64] S32x192 1
  bcast_S_S32x192 : S_.BroadcastsInDim S32x192 (![] : Fin 0 → Fin S32x192.rank)
  concatenates_S32x192_S32x192_S32x192_S32x192_S32x768_d1 : Shape.Concatenates [S32x192, S32x192, S32x192, S32x192] S32x768 1
  concatenates_S32x768_S32x768_S32x768_S32x768_S128x768_d0 : Shape.Concatenates [S32x768, S32x768, S32x768, S32x768] S128x768 0
  shapeCasts_S1048576x32_S262144x128 : S1048576x32.ShapeCasts S262144x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  h_S512x128 : 0 < S512x128.numel
  shapeCasts_S512x128_S512x128 : S512x128.ShapeCasts S512x128
  slices_S512x768_o0_0_S512x192 : S512x768.Slices ![0, 0] S512x192
  slices_S512x192_o0_0_S512x64 : S512x192.Slices ![0, 0] S512x64
  slices_S512x192_o0_64_S512x64 : S512x192.Slices ![0, 64] S512x64
  slices_S512x192_o0_128_S512x64 : S512x192.Slices ![0, 128] S512x64
  reduces_S512x64_S512 : S512x64.Reduces [1] S512
  shapeCasts_S512_S512x1 : S512.ShapeCasts S512x1
  slices_S512x768_o0_192_S512x192 : S512x768.Slices ![0, 192] S512x192
  slices_S512x768_o0_384_S512x192 : S512x768.Slices ![0, 384] S512x192
  slices_S512x768_o0_576_S512x192 : S512x768.Slices ![0, 576] S512x192
  concatenates_S512x1_S512x1_S512x1_S512x1_S512x4_d1 : Shape.Concatenates [S512x1, S512x1, S512x1, S512x1] S512x4 1
  h_S512x4 : 0 < S512x4.numel
  shapeCasts_S262144x4_S1048576x1 : S262144x4.ShapeCasts S1048576x1
  dot_S512x128_S128x768_S512x768_1_0_0_1_n_n_wf : DotDims.WF S512x128 S128x768 S512x768 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S4096x128.size a
  k0_off2_inb : ∀ k0_t1 : Fin k0_t1_loop.trips, ∀ a, (k0_off2 k0_t1) a + S512x4.size a ≤ S4096x4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S262144x4.size a
  hwx0_2 : ∀ i : grid0.Coords, EltTy.bits .f32 = 32 ∨ (Rect.block (s := S262144x4) S4096x4.size (cc0_transform_2 i) (hinb0_2 i)).WholeWords (EltTy.packing .f32)

variable [Facts₀]

def dot_S512x128_S128x768_S512x768_1_0_0_1_n_n : DotDims S512x128 S128x768 S512x768 where
  lhsContracting := [1]
  rhsContracting := [0]
  lhsNonContracting := [0]
  rhsNonContracting := [1]
  lhsBatch := []
  rhsBatch := []
  wf := dot_S512x128_S128x768_S512x768_1_0_0_1_n_n_wf

abbrev win0_0 : Pipeline.Window sig grid0 :=
  Pipeline.Window.ofSpec (Memref.whole main_v33) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4096x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S64x3 : Shape := ⟨2, ![64, 3]⟩
abbrev S_ : Shape := ⟨0, ![]⟩
abbrev S64x3x1 : Shape := ⟨3, ![64, 3, 1]⟩
abbrev S1048576x64x3 : Shape := ⟨3, ![1048576, 64, 3]⟩
abbrev S1048576x64 : Shape := ⟨2, ![1048576, 64]⟩
abbrev S1048576 : Shape := ⟨1, ![1048576]⟩
abbrev S1048576x1 : Shape := ⟨2, ![1048576, 1]⟩

abbrev nBuf : Space → Nat
  | .hbm => 16
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S64x3, .i32⟩
  | .hbm, ⟨2, _⟩ => ⟨S_, .i32⟩
  | .hbm, ⟨3, _⟩ => ⟨S64x3, .i32⟩
  | .hbm, ⟨4, _⟩ => ⟨S64x3, .i1⟩
  | .hbm, ⟨5, _⟩ => ⟨S_, .i32⟩
  | .hbm, ⟨6, _⟩ => ⟨S64x3, .i32⟩
  | .hbm, ⟨7, _⟩ => ⟨S64x3, .i32⟩
  | .hbm, ⟨8, _⟩ => ⟨S64x3, .i32⟩
  | .hbm, ⟨9, _⟩ => ⟨S64x3x1, .i32⟩
  | .hbm, ⟨10, _⟩ => ⟨S1048576x64x3, .f32⟩
  | .hbm, ⟨11, _⟩ => ⟨S_, .f32⟩
  | .hbm, ⟨12, _⟩ => ⟨S1048576x64, .f32⟩
  | .hbm, ⟨13, _⟩ => ⟨S_, .f32⟩
  | .hbm, ⟨14, _⟩ => ⟨S1048576, .f32⟩
  | .hbm, ⟨15, _⟩ => ⟨S1048576x1, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S64x3 : S_.BroadcastsInDim S64x3 (![] : Fin 0 → Fin S64x3.rank)
  bcast_S64x3_S64x3x1_0_1 : S64x3.BroadcastsInDim S64x3x1 (![0, 1] : Fin 2 → Fin S64x3x1.rank)
  reducesTo_S1048576x64x3_S1048576x64_d2 : S1048576x64x3.ReducesTo [2] S1048576x64
  h_S_ : 0 < S_.numel
  reducesTo_S1048576x64_S1048576_d1 : S1048576x64.ReducesTo [1] S1048576
  bcast_S1048576_S1048576x1_0 : S1048576.BroadcastsInDim S1048576x1 (![0] : Fin 1 → Fin S1048576x1.rank)
  gather_S1048576x32_S64x3x1_S1048576x64x3_0_1_n_n_1_2_10485761_wf : GatherDims.WF S1048576x32 S64x3x1 S1048576x64x3 [0] [1] [] [1] [] 2 ![1048576, 1]

variable [Facts₀]

def gather_S1048576x32_S64x3x1_S1048576x64x3_0_1_n_n_1_2_10485761 : GatherDims S1048576x32 S64x3x1 S1048576x64x3 where
  offsetDims := [0]
  collapsedSliceDims := [1]
  operandBatchingDims := []
  startIndicesBatchingDims := []
  startIndexMap := [1]
  indexVectorDim := 2
  sliceSizes := ![1048576, 1]
  wf := gather_S1048576x32_S64x3x1_S1048576x64x3_0_1_n_n_1_2_10485761_wf

class Facts : Prop extends Facts₀ where

variable [Facts]
-- ==== Proof.Kernel.Around.lean ====
/-
  @main of the kernel's program around its one launch: three stretches of host operations (the iota and two bounds;
  the clip of the group indices; the one-hot selector built from equality tests, concatenated into a block-diagonal
  128 × 768 matrix, and the reshape of x to 262144 × 128), the launch, and one reshape of the launch's result.
  Here: what every TensorCore buffer holds when the launch is entered (the host operations before it, applied in
  order to the launch memory), that the two argument arrays are written by no host operation before or after the
  launch, the blocks the pipeline hands the body, and the frame claim's post read off a run to the library's post.
-/
import proofs.«428628_j64235530879326_3_alg».proof.Proof.Gen.Kernel.Launch
import proofs.«428628_j64235530879326_3_alg».proof.Proof.Gen.Kernel.Skeleton
import proofs.«428628_j64235530879326_3_alg».proof.Proof.Gen.Kernel.Loops
import proofs.«428628_j64235530879326_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch is entered -/

/-- Core `c`'s TensorCore buffer contents when the launch is entered: the 42 host operations before it applied, in
    order, to the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the reshape after it: it reduces to the launch
    continued by that reshape, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes a given reference that is none of their 42 result buffers. -/
theorem V_of_not_result (c : Dev nD) (b : Ref sig .tc)
    (hb : ∀ y ∈ ([main_v0, main_c, main_c_0, main_call0_v0, main_call0_v1, main_call0_v2, main_call0_v3, main_call0_v4, main_v1,
      main_v2, main_v3, main_v4, main_v5, main_v6, main_v7, main_v8, main_v9, main_v10, main_v11, main_v12, main_v13, main_v14,
      main_v15, main_v16, main_v17, main_v18, main_v19, main_v20, main_v21, main_v22, main_v23, main_v24, main_v25, main_v26,
      main_cst, main_v27, main_v28, main_v29, main_v30, main_v31, main_v32, main_v33] : List (Ref sig .tc)), b ≠ y) :
    V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    simp only [List.mem_cons, List.mem_nil_iff, or_false, forall_eq_or_imp, forall_eq] at hb
    obtain ⟨h1, h2, h3, h4, h5, h6, h7, h8, h9, h10, h11, h12, h13, h14, h15, h16, h17, h18, h19, h20, h21, h22, h23, h24,
      h25, h26, h27, h28, h29, h30, h31, h32, h33, h34, h35, h36, h37, h38, h39, h40, h41, h42⟩ := hb
    repeat' apply And.intro
    all_goals first
      | exact StableHlo.devRef_ne_of_ne ‹_›))

/-- The two argument arrays are as launched when the launch is entered. -/
theorem V_main_arg0 (c : Dev nD) : V m c main_arg0 = m ((c : Thread nD τ).loc main_arg0) :=
  V_of_not_result m c main_arg0 (by decide)
theorem V_main_arg1 (c : Dev nD) : V m c main_arg1 = m ((c : Thread nD τ).loc main_arg1) :=
  V_of_not_result m c main_arg1 (by decide)

/-- The reshape after the launch writes neither argument array, and neither is one of the launch's arrays: both end
    as launched. -/
theorem W_of_arg (dats : (p : Fin _) → (c : Dev nD) → Dat τ (Elt F) Unit ℕ (UR sig nD τ) ℕ (cfgs p) c) (c : Dev nD)
    (b : Ref sig .tc) (hb : b ≠ main_v35) (hw : ∀ w, Pipeline.arrRef spec0 w ≠ b) (hV : V m c b = m ((c : Thread nD τ).loc b)) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]
  exact hV

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of_arg m dats c main_arg0 (by decide) (by decide) (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_arg m dats c main_arg1 (by decide) (by decide) (V_main_arg1 m c)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The packed rows' window: its current staging buffer holds block `t` at every point (it is fetched at each). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The selector's window: fetched at the first point only, its one block never moves, and the body leaves it in
    place, so its staging buffer holds the whole selector at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post -/

/-- A run of @main to the library's post (every array of the launch at what the proof data says, every other unscoped
    buffer as the reshape after the launch leaves it) ends with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The staging memrefs at a point -/

/-- One staging buffer of the output window, through which its contents are stated. -/
abbrev VO0_2 : View sig .tc .vmem S4096x4 .f32 := (Memref.whole cc0_stg2_0 : Memref sig .tc .vmem S4096x4 .f32).view
/-- Each window's current staging memref at point `t`, as the pipeline passes it to the body, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x4 .f32 := win0_2.stage (cfg0.slots t 2)
abbrev hs0_2 (t : Fin cfg0.N) : (ms0_2 t).IsWhole := hstage0_2 ((cfg0.slots t 2).cast nbuf0_2)

end Cert.Kernel.Fr

end
-- ==== Proof.Kernel.Run.lean ====
/-
  The kernel body run once, on any whole staging memrefs: it loads the whole selector, then in each of eight trips
  loads 512 packed rows, forms their product with the selector, takes the minimum over each group's three slots and
  the maximum over the 64 groups for each of the four packed rows, and stores the 512 × 4 result at the trip's rows
  of the output block. The run goes through the loop by its invariant (the pieces of the trips before); what it
  finds is the list of pieces the output block ends with.
-/
import proofs.«428628_j64235530879326_3_alg».proof.Proof.Kernel.Around

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref (last first), with the proof that on whole
    staging memrefs — the two inputs' at their contents, the output's at anything — the body runs to the continuation
    holding the inputs' as they were and the output's with those pieces written. -/
noncomputable def kernelRun0_A (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) :
    { L2 : List (View.Piece (Elt F) S4096x4 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__gather_min_max_kernel i arg1 harg1 arg2 harg2 arg3 harg3) K } := by
  refine ⟨?_, fun E K => ?run⟩
  case run =>
    simp only [cc0__gather_min_max_kernel_eq_skeleton]; unfold cc0__gather_min_max_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Fr

end
-- ==== Proof.Kernel.Frame.lean ====
/-
  The frame of the kernel's program: the proof data of its one launch (each input's staging buffer at its block, the
  output's at the pieces the body's run leaves, read back over arbitrary prior contents — the eight 512-row pieces
  tile the 4096 × 4 block, so nothing of the prior contents is left), the body obligation at every grid point, the
  run of @main to the library's post, and the frame claim's post.
-/
import proofs.«428628_j64235530879326_3_alg».proof.Proof.Kernel.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output block are eight stores of 512 × 4 tiles that tile it, so they cover it. -/
theorem cover0_A_2 (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) (y : S4096x4.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S512x4.size (by sl_kernel_rfl) y

/-- What the run leaves in the output's staging buffer: its pieces read back over junk. -/
def out0_A_2 (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) : Vec F S4096x4 .f32 :=
  VO0_2.read (Elt F) (VO0_2.writes (Elt F) VO0_2.junk (kernelRun0_A c i arg1 harg1 arg2 harg2 arg3 harg3 x0 x1).1)

/-! ## What the output holds after each point -/

/-- The output's staging buffer after the body at point `t`: the run's contents at the point's memrefs and input blocks. -/
def outsAt0 (c : Dev nD) (t : Fin cfg0.N) : Vec F S4096x4 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the launch on core `c`: the arrays as the launch finds them; after the body at point `t` each
    input's buffer at its block and the output's at `outsAt0`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the launch at what the proof data says and every other unscoped buffer as the reshape after the launch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KernelIdeal.Around.lean ====
/-
  @main of the kernel's program around its one launch: three stretches of host operations (the iota and two bounds;
  the clip of the group indices; the one-hot selector built from equality tests, concatenated into a block-diagonal
  128 × 768 matrix, and the reshape of x to 262144 × 128), the launch, and one reshape of the launch's result.
  Here: what every TensorCore buffer holds when the launch is entered (the host operations before it, applied in
  order to the launch memory), that the two argument arrays are written by no host operation before or after the
  launch, the blocks the pipeline hands the body, and the frame claim's post read off a run to the library's post.
-/
import proofs.«428628_j64235530879326_3_alg».proof.Proof.Gen.KernelIdeal.Launch
import proofs.«428628_j64235530879326_3_alg».proof.Proof.Gen.KernelIdeal.Skeleton
import proofs.«428628_j64235530879326_3_alg».proof.Proof.Gen.KernelIdeal.Loops
import proofs.«428628_j64235530879326_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch is entered -/

/-- Core `c`'s TensorCore buffer contents when the launch is entered: the 42 host operations before it applied, in
    order, to the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the reshape after it: it reduces to the launch
    continued by that reshape, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes a given reference that is none of their 42 result buffers. -/
theorem V_of_not_result (c : Dev nD) (b : Ref sig .tc)
    (hb : ∀ y ∈ ([main_v0, main_c, main_c_0, main_call0_v0, main_call0_v1, main_call0_v2, main_call0_v3, main_call0_v4, main_v1,
      main_v2, main_v3, main_v4, main_v5, main_v6, main_v7, main_v8, main_v9, main_v10, main_v11, main_v12, main_v13, main_v14,
      main_v15, main_v16, main_v17, main_v18, main_v19, main_v20, main_v21, main_v22, main_v23, main_v24, main_v25, main_v26,
      main_cst, main_v27, main_v28, main_v29, main_v30, main_v31, main_v32, main_v33] : List (Ref sig .tc)), b ≠ y) :
    V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    simp only [List.mem_cons, List.mem_nil_iff, or_false, forall_eq_or_imp, forall_eq] at hb
    obtain ⟨h1, h2, h3, h4, h5, h6, h7, h8, h9, h10, h11, h12, h13, h14, h15, h16, h17, h18, h19, h20, h21, h22, h23, h24,
      h25, h26, h27, h28, h29, h30, h31, h32, h33, h34, h35, h36, h37, h38, h39, h40, h41, h42⟩ := hb
    repeat' apply And.intro
    all_goals first
      | exact StableHlo.devRef_ne_of_ne ‹_›))

/-- The two argument arrays are as launched when the launch is entered. -/
theorem V_main_arg0 (c : Dev nD) : V m c main_arg0 = m ((c : Thread nD τ).loc main_arg0) :=
  V_of_not_result m c main_arg0 (by decide)
theorem V_main_arg1 (c : Dev nD) : V m c main_arg1 = m ((c : Thread nD τ).loc main_arg1) :=
  V_of_not_result m c main_arg1 (by decide)

/-- The reshape after the launch writes neither argument array, and neither is one of the launch's arrays: both end
    as launched. -/
theorem W_of_arg (dats : (p : Fin _) → (c : Dev nD) → Dat τ (Elt F) Unit ℕ (UR sig nD τ) ℕ (cfgs p) c) (c : Dev nD)
    (b : Ref sig .tc) (hb : b ≠ main_v35) (hw : ∀ w, Pipeline.arrRef spec0 w ≠ b) (hV : V m c b = m ((c : Thread nD τ).loc b)) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]
  exact hV

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of_arg m dats c main_arg0 (by decide) (by decide) (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_arg m dats c main_arg1 (by decide) (by decide) (V_main_arg1 m c)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The packed rows' window: its current staging buffer holds block `t` at every point (it is fetched at each). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The selector's window: fetched at the first point only, its one block never moves, and the body leaves it in
    place, so its staging buffer holds the whole selector at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post -/

/-- A run of @main to the library's post (every array of the launch at what the proof data says, every other unscoped
    buffer as the reshape after the launch leaves it) ends with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The staging memrefs at a point -/

/-- One staging buffer of the output window, through which its contents are stated. -/
abbrev VO0_2 : View sig .tc .vmem S4096x4 .f32 := (Memref.whole cc0_stg2_0 : Memref sig .tc .vmem S4096x4 .f32).view
/-- Each window's current staging memref at point `t`, as the pipeline passes it to the body, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x4 .f32 := win0_2.stage (cfg0.slots t 2)
abbrev hs0_2 (t : Fin cfg0.N) : (ms0_2 t).IsWhole := hstage0_2 ((cfg0.slots t 2).cast nbuf0_2)

end Cert.KernelIdeal.Fr

end
-- ==== Proof.KernelIdeal.Run.lean ====
/-
  The kernel body run once, on any whole staging memrefs: it loads the whole selector, then in each of eight trips
  loads 512 packed rows, forms their product with the selector, takes the minimum over each group's three slots and
  the maximum over the 64 groups for each of the four packed rows, and stores the 512 × 4 result at the trip's rows
  of the output block. The run goes through the loop by its invariant (the pieces of the trips before); what it
  finds is the list of pieces the output block ends with.
-/
import proofs.«428628_j64235530879326_3_alg».proof.Proof.KernelIdeal.Around

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref (last first), with the proof that on whole
    staging memrefs — the two inputs' at their contents, the output's at anything — the body runs to the continuation
    holding the inputs' as they were and the output's with those pieces written. -/
noncomputable def kernelRun0_A (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) :
    { L2 : List (View.Piece (Elt F) S4096x4 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__gather_min_max_kernel i arg1 harg1 arg2 harg2 arg3 harg3) K } := by
  refine ⟨?_, fun E K => ?run⟩
  case run =>
    simp only [cc0__gather_min_max_kernel_eq_skeleton]; unfold cc0__gather_min_max_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Fr

end
-- ==== Proof.KernelIdeal.Frame.lean ====
/-
  The frame of the kernel's program: the proof data of its one launch (each input's staging buffer at its block, the
  output's at the pieces the body's run leaves, read back over arbitrary prior contents — the eight 512-row pieces
  tile the 4096 × 4 block, so nothing of the prior contents is left), the body obligation at every grid point, the
  run of @main to the library's post, and the frame claim's post.
-/
import proofs.«428628_j64235530879326_3_alg».proof.Proof.KernelIdeal.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output block are eight stores of 512 × 4 tiles that tile it, so they cover it. -/
theorem cover0_A_2 (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) (y : S4096x4.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S512x4.size (by sl_kernel_rfl) y

/-- What the run leaves in the output's staging buffer: its pieces read back over junk. -/
def out0_A_2 (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) : Vec F S4096x4 .f32 :=
  VO0_2.read (Elt F) (VO0_2.writes (Elt F) VO0_2.junk (kernelRun0_A c i arg1 harg1 arg2 harg2 arg3 harg3 x0 x1).1)

/-! ## What the output holds after each point -/

/-- The output's staging buffer after the body at point `t`: the run's contents at the point's memrefs and input blocks. -/
def outsAt0 (c : Dev nD) (t : Fin cfg0.N) : Vec F S4096x4 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the launch on core `c`: the arrays as the launch finds them; after the body at point `t` each
    input's buffer at its block and the output's at `outsAt0`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the launch at what the proof data says and every other unscoped buffer as the reshape after the launch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KernelIdeal.Pieces.lean ====
/-
  What the body leaves in the output block, index by index. The run's pieces are the eight trips' pieces: trip k stores,
  at rows 512k … 512k + 511 of the 4096 × 4 block, the body's arithmetic applied to the selector and to rows
  512k … 512k + 511 of the packed input block. So whenever a function of the block index agrees with that arithmetic on
  every trip's rows, the block the run leaves is that function.
-/
import proofs.«428628_j64235530879326_3_alg».proof.Proof.KernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loop makes eight trips. -/
theorem trips_eq : k0_t1_loop.trips = 8 := by decide

theorem hz : (![0, 0] : Fin 2 → Nat) = fun _ => 0 := funext fun a => by fin_cases a <;> rfl

/-- Trip `k` stores one piece: at its rows, the arithmetic of the selector and of the rows it loaded. -/
theorem tripL_eq (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (v0 : Vec F S128x768 .f32) (X1 : BufTy.Contents (Elt F) arg1.view.ty) (k : Fin k0_t1_loop.trips) :
    tripL_k0_t1 (F := F) Variants.none c none i arg1 harg1 arg2 harg2 arg3 harg3 v0 X1 k
      = [⟨Rect.unit (s := S4096x4) (k0_off2 k) S512x4.size (k0_off2_inb k),
          k0_pay1 v0 (View.readAt (Elt F) arg1.view (Rect.unit (s := S4096x128) (k0_off1 k) S512x128.size (k0_off1_inb k)).toLoadRect X1)⟩] := by
  unfold tripL_k0_t1 trip_k0_t1; rfl

/-- Every piece of the trips before `n` is a block of one function `Gf` of the block index, if each trip's arithmetic is. -/
theorem pb_pieces (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (v0 : Vec F S128x768 .f32) (X1 : BufTy.Contents (Elt F) arg1.view.ty) (Gf : S4096x4.Idx → Elt F .f32)
    (hG : ∀ (k : Fin k0_t1_loop.trips) (x : S512x4.Idx),
      k0_pay1 v0 (View.readAt (Elt F) arg1.view (Rect.unit (s := S4096x128) (k0_off1 k) S512x128.size (k0_off1_inb k)).toLoadRect X1) x
        = Gf ((Rect.unit (s := S4096x4) (k0_off2 k) S512x4.size (k0_off2_inb k)).emb x)) :
    ∀ n, n ≤ k0_t1_loop.trips → ∀ p ∈ pb_k0_t1 (F := F) Variants.none c none i arg1 harg1 arg2 harg2 arg3 harg3 v0 X1 n,
      ∀ x : p.1.shape.Idx, p.2 x = Gf (p.1.emb x)
  | 0, _ => by intro p hp; rw [pb_k0_t1] at hp; exact absurd hp List.not_mem_nil
  | n + 1, hn => by
    intro p hp
    have e : pb_k0_t1 (F := F) Variants.none c none i arg1 harg1 arg2 harg2 arg3 harg3 v0 X1 (n + 1)
        = tripL_k0_t1 (F := F) Variants.none c none i arg1 harg1 arg2 harg2 arg3 harg3 v0 X1 ⟨n, hn⟩
          ++ pb_k0_t1 (F := F) Variants.none c none i arg1 harg1 arg2 harg2 arg3 harg3 v0 X1 n :=
      pb_k0_t1_succ Variants.none c none i arg1 harg1 arg2 harg2 arg3 harg3 v0 X1 ⟨n, hn⟩
    rw [e, List.mem_append, tripL_eq, List.mem_singleton] at hp
    rcases hp with hp | hp
    · subst hp; intro x; exact hG ⟨n, hn⟩ x
    · exact pb_pieces c i arg1 harg1 arg2 harg2 arg3 harg3 v0 X1 Gf hG n (Nat.le_of_succ_le hn) p hp

/-- The run's pieces are those of all eight trips, over the selector it loaded and the packed block as it stood. -/
theorem run_pieces (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) :
    (kernelRun0_A c i arg1 harg1 arg2 harg2 arg3 harg3 x0 x1).1
      = pb_k0_t1 (F := F) Variants.none c none i arg1 harg1 arg2 harg2 arg3 harg3
          (View.readAt (Elt F) arg2.view (Rect.unit (s := S128x768) ![0, 0] S128x768.size inb_S128x768_S128x768_0_0).toLoadRect (harg2.unread x1))
          (harg1.unread x0) k0_t1_loop.trips := by
  unfold kernelRun0_A; rfl

/-- THE OUTPUT BLOCK after the body is `Gf`, for any `Gf` that on each trip's rows is the body's arithmetic of the whole
    selector block and of that trip's rows of the packed block. -/
theorem out_apply (c : Dev nD) (i : grid0.Coords) (arg1 : Memref sig .tc .vmem S4096x128 .f32) (harg1 : arg1.IsWhole)
    (arg2 : Memref sig .tc .vmem S128x768 .f32) (harg2 : arg2.IsWhole) (arg3 : Memref sig .tc .vmem S4096x4 .f32) (harg3 : arg3.IsWhole)
    (x0 : Vec F S4096x128 .f32) (x1 : Vec F S128x768 .f32) (Gf : S4096x4.Idx → Elt F .f32)
    (hG : ∀ (k : Fin k0_t1_loop.trips) (x : S512x4.Idx),
      k0_pay1 x1 (View.ld x0 (Rect.unit (s := S4096x128) (k0_off1 k) S512x128.size (k0_off1_inb k))) x
        = Gf ((Rect.unit (s := S4096x4) (k0_off2 k) S512x4.size (k0_off2_inb k)).emb x)) :
    out0_A_2 c i arg1 harg1 arg2 harg2 arg3 harg3 x0 x1 = Gf := by
  unfold out0_A_2
  rw [View.read_writes_eq_canon _ _ _ (cover0_A_2 c i arg1 harg1 arg2 harg2 arg3 harg3 x0 x1)]
  funext y
  refine View.canon_apply_of_pieces Gf _ ?_ y (cover0_A_2 c i arg1 harg1 arg2 harg2 arg3 harg3 x0 x1 y)
  rw [run_pieces]
  refine pb_pieces c i arg1 harg1 arg2 harg2 arg3 harg3 _ _ Gf (fun k x => ?_) _ le_rfl
  rw [View.readAt_eq_ld, View.readAt_eq_ld, harg1.read_unread, harg2.read_unread, View.ld_unit_zero (S := S128x768) hz]
  exact hG k x

end Cert.KernelIdeal.Fr

end
-- ==== Proof.Spec.lean ====
/-
  What both programs compute, as one function of the two argument arrays over the extended reals: for batch row b,
  the maximum over the 64 groups of the minimum of the group's three features, feature (g, k) being x[b, groups[g, k]].
  Group indices are read under the precondition 0 ≤ groups[g, k] < 32 (`InRange`): there every way of reading an
  index word as a column — clamped into [0, 31], wrapped when negative, or compared for equality with 0 … 31 — names
  the same column.
-/
import Idealize.ShloMosaic.PureOps.Ideal
import Idealize.ShloMosaic.Lib.ValueIdx

noncomputable section

namespace Cert.Spec

open Idealize.ShloMosaic Idealize.ShloMosaic.ValueIdx

/-- The shapes of x, of the group table, and of the result. -/
abbrev SX : Shape := ⟨2, ![1048576, 32]⟩
abbrev SG : Shape := ⟨2, ![64, 3]⟩
abbrev SO : Shape := ⟨2, ![1048576, 1]⟩

/-- Every group index names a feature column: 0 ≤ groups[g, k] < 32, read signed. -/
def InRange (grp : IVec SG 32) : Prop :=
  ∀ (g : Fin 64) (k : Fin 3), 0 ≤ (grp (ix2 g k)).toInt ∧ (grp (ix2 g k)).toInt < 32

/-- The column an index word names: the word read signed, clamped into [0, 31] (the identity on words in range). -/
def col (w : BitVec 32) : Fin 32 := ⟨min w.toInt.toNat 31, by omega⟩

/-- Feature (g, k) of batch row b. -/
def feat (x : FVec Ideal SX .f32) (grp : IVec SG 32) (b : Fin 1048576) (g : Fin 64) (k : Fin 3) : EReal :=
  x (ix2 b (col (grp (ix2 g k))))

/-- The minimum of group g's three features at row b. -/
def groupMin (x : FVec Ideal SX .f32) (grp : IVec SG 32) (b : Fin 1048576) (g : Fin 64) : EReal :=
  min (min (feat x grp b g 0) (feat x grp b g 1)) (feat x grp b g 2)

/-- The result: at row b the maximum over the groups of the group minima, folded from the word of −∞. -/
def G (x : FVec Ideal SX .f32) (grp : IVec SG 32) : FVec Ideal SO .f32 :=
  fun i => (Finset.univ : Finset (Fin 64)).fold max (Ideal.ofBits .f32 0xFF800000#32)
    (fun g => groupMin x grp ⟨(i 0).val, idx2_lt0 i⟩ g)

/-- A word in range is its column's number. -/
theorem col_val_of_inRange {w : BitVec 32} (h0 : 0 ≤ w.toInt) (h1 : w.toInt < 32) : (col w).val = w.toNat := by
  have h2 : w.toInt = (w.toNat : Int) := by
    unfold BitVec.toInt at h0 h1 ⊢
    split <;> rename_i h <;> simp_all <;> omega
  show min w.toInt.toNat 31 = w.toNat
  omega

end Cert.Spec

end
-- ==== Proof.KernelIdeal.Selector.lean ====
/-
  The selector the host operations build, read at an index. Row 32·m' + j, column 192·m + 64·k + g of the 128 × 768
  matrix is 1 exactly when m' = m and j is the (clipped) group index groups[g, k], else 0: three one-hot 32 × 64
  slabs (one per slot k) side by side make a 32 × 192 block, and four copies of that block sit on the diagonal of a
  4 × 4 arrangement of 32 × 192 blocks whose other entries are zero. With the indices in range the clip is the identity.
  Also: the packed rows are x reshaped, row p holding x's rows 4p … 4p + 3 side by side.
-/
import proofs.«428628_j64235530879326_3_alg».proof.Proof.KernelIdeal.Around
import proofs.«428628_j64235530879326_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Sel

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

section Three
variable {nD' : Nat} {τ' : Topo} {sig' : RefSig} {Val' : EltTy → Type}
/-- A three-operand operation's result with each operand's contents at its own reference. -/
theorem nary3_result {x a b y : Ref sig' .tc}
    (f : ((k : Fin 3) → ((![x, a, b] : Fin 3 → Ref sig' .tc) k).ty.Contents Val') → y.ty.Contents Val') (hxs hy)
    (F : Valuation τ' sig' Val') :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl
end Three

/-- The group table clipped into [0, 31]: the maximum with 0, then the minimum with 31. -/
def clipT (grp : IVec S64x3 32) : IVec S64x3 32 :=
  minsi (broadcastInDim S64x3 ![] bcast_S_S64x3 (constantI S_ 32 31#32))
    (maxsi (broadcastInDim S64x3 ![] bcast_S_S64x3 (constantI S_ 32 0#32)) grp)

/-- The three columns of a 64 × 3 table, each as a vector of 64 words. -/
def col0 (t : IVec S64x3 32) : IVec S64 32 := shapeCast S64 (extractStridedSlice S64x1 ![0, 0] t slices_S64x3_S64x1_0_0) shapeCasts_S64x1_S64
def col1 (t : IVec S64x3 32) : IVec S64 32 := shapeCast S64 (extractStridedSlice S64x1 ![0, 1] t slices_S64x3_S64x1_0_1) shapeCasts_S64x1_S64
def col2 (t : IVec S64x3 32) : IVec S64 32 := shapeCast S64 (extractStridedSlice S64x1 ![0, 2] t slices_S64x3_S64x1_0_2) shapeCasts_S64x1_S64

/-- One one-hot slab: entry (j, g) is the equality test of the row number j with the g-th word, as a float. -/
def slab (v : IVec S64 32) : FVec Ideal S32x64 .f32 :=
  uitofp .f32 (cmpi .eq
    (broadcastInDim S32x64 ![0, 1] bcast_S32x1_S32x64_0_1 (broadcastInDim S32x1 ![0] bcast_S32_S32x1_0 (iotaInDim S32 32 0)))
    (broadcastInDim S32x64 ![0, 1] bcast_S1x64_S32x64_0_1 (broadcastInDim S1x64 ![1] bcast_S64_S1x64_1 v)))

/-- Three 32 × 64 slabs side by side. -/
def cat3 (a b c : FVec Ideal S32x64 .f32) : FVec Ideal S32x192 .f32 :=
  concatenate S32x192 1 [⟨S32x64, a⟩, ⟨S32x64, b⟩, ⟨S32x64, c⟩] concatenates_S32x64_S32x64_S32x64_S32x192_d1

/-- The zero 32 × 192 block. -/
def zblk : FVec Ideal S32x192 .f32 := broadcastInDim S32x192 ![] bcast_S_S32x192 (constant (F := Ideal) S_ .f32 0x00000000#32)

/-- Four 32 × 192 blocks side by side. -/
def rowOf (a b c d : FVec Ideal S32x192 .f32) : FVec Ideal S32x768 .f32 :=
  concatenate S32x768 1 [⟨S32x192, a⟩, ⟨S32x192, b⟩, ⟨S32x192, c⟩, ⟨S32x192, d⟩]
    concatenates_S32x192_S32x192_S32x192_S32x192_S32x768_d1

/-- Four 32 × 768 rows of blocks one above the other. -/
def rows4 (a b c d : FVec Ideal S32x768 .f32) : FVec Ideal S128x768 .f32 :=
  concatenate S128x768 0 [⟨S32x768, a⟩, ⟨S32x768, b⟩, ⟨S32x768, c⟩, ⟨S32x768, d⟩]
    concatenates_S32x768_S32x768_S32x768_S32x768_S128x768_d0

/-- The 128 × 768 matrix with block B four times on the diagonal of a 4 × 4 arrangement and block Z elsewhere. -/
def selOf (B Z : FVec Ideal S32x192 .f32) : FVec Ideal S128x768 .f32 :=
  rows4 (rowOf B Z Z Z) (rowOf Z B Z Z) (rowOf Z Z B Z) (rowOf Z Z Z B)

/-! The six concatenations of the program, each one's result over the contents of its operands. -/
section Cats
variable (F : Valuation τ sig (Elt Ideal))
theorem res_v26 :
    (StableHlo.nary ![main_v9, main_v17, main_v25] main_v26 (fun u => concatenate S32x192 1 [⟨S32x64, u 0⟩, ⟨S32x64, u 1⟩, ⟨S32x64, u 2⟩] concatenates_S32x64_S32x64_S32x64_S32x192_d1)).result F (no_index (Proc.devRef .tc main_v26))
      = cat3 (F (Proc.devRef .tc main_v9)) (F (Proc.devRef .tc main_v17)) (F (Proc.devRef .tc main_v25)) :=
  (nary3_result _ _ _ F).trans rfl
theorem res_v28 :
    (StableHlo.nary ![main_v26, main_v27, main_v27, main_v27] main_v28 (fun u => concatenate S32x768 1 [⟨S32x192, u 0⟩, ⟨S32x192, u 1⟩, ⟨S32x192, u 2⟩, ⟨S32x192, u 3⟩] concatenates_S32x192_S32x192_S32x192_S32x192_S32x768_d1)).result F (no_index (Proc.devRef .tc main_v28))
      = rowOf (F (Proc.devRef .tc main_v26)) (F (Proc.devRef .tc main_v27)) (F (Proc.devRef .tc main_v27)) (F (Proc.devRef .tc main_v27)) :=
  (StableHlo.nary4_result _ _ _ F).trans rfl
theorem res_v29 :
    (StableHlo.nary ![main_v27, main_v26, main_v27, main_v27] main_v29 (fun u => concatenate S32x768 1 [⟨S32x192, u 0⟩, ⟨S32x192, u 1⟩, ⟨S32x192, u 2⟩, ⟨S32x192, u 3⟩] concatenates_S32x192_S32x192_S32x192_S32x192_S32x768_d1)).result F (no_index (Proc.devRef .tc main_v29))
      = rowOf (F (Proc.devRef .tc main_v27)) (F (Proc.devRef .tc main_v26)) (F (Proc.devRef .tc main_v27)) (F (Proc.devRef .tc main_v27)) :=
  (StableHlo.nary4_result _ _ _ F).trans rfl
theorem res_v30 :
    (StableHlo.nary ![main_v27, main_v27, main_v26, main_v27] main_v30 (fun u => concatenate S32x768 1 [⟨S32x192, u 0⟩, ⟨S32x192, u 1⟩, ⟨S32x192, u 2⟩, ⟨S32x192, u 3⟩] concatenates_S32x192_S32x192_S32x192_S32x192_S32x768_d1)).result F (no_index (Proc.devRef .tc main_v30))
      = rowOf (F (Proc.devRef .tc main_v27)) (F (Proc.devRef .tc main_v27)) (F (Proc.devRef .tc main_v26)) (F (Proc.devRef .tc main_v27)) :=
  (StableHlo.nary4_result _ _ _ F).trans rfl
theorem res_v31 :
    (StableHlo.nary ![main_v27, main_v27, main_v27, main_v26] main_v31 (fun u => concatenate S32x768 1 [⟨S32x192, u 0⟩, ⟨S32x192, u 1⟩, ⟨S32x192, u 2⟩, ⟨S32x192, u 3⟩] concatenates_S32x192_S32x192_S32x192_S32x192_S32x768_d1)).result F (no_index (Proc.devRef .tc main_v31))
      = rowOf (F (Proc.devRef .tc main_v27)) (F (Proc.devRef .tc main_v27)) (F (Proc.devRef .tc main_v27)) (F (Proc.devRef .tc main_v26)) :=
  (StableHlo.nary4_result _ _ _ F).trans rfl
theorem res_v32 :
    (StableHlo.nary ![main_v28, main_v29, main_v30, main_v31] main_v32 (fun u => concatenate S128x768 0 [⟨S32x768, u 0⟩, ⟨S32x768, u 1⟩, ⟨S32x768, u 2⟩, ⟨S32x768, u 3⟩] concatenates_S32x768_S32x768_S32x768_S32x768_S128x768_d0)).result F (no_index (Proc.devRef .tc main_v32))
      = rows4 (F (Proc.devRef .tc main_v28)) (F (Proc.devRef .tc main_v29)) (F (Proc.devRef .tc main_v30)) (F (Proc.devRef .tc main_v31)) :=
  (StableHlo.nary4_result _ _ _ F).trans rfl
end Cats

open Idealize.ShloMosaic.StableHlo in
/-- The host operations' results in one pass, the six concatenations by the lemmas above. -/
macro "host_results" : tactic =>
  `(tactic| (simp (disch := decide) only [after_cons, after_nil,
      nullary_result', unary_result', binary_result', reshape_result',
      res_v26, res_v28, res_v29, res_v30, res_v31, res_v32,
      nullary_result_ne', unary_result_ne', binary_result_ne', reshape_result_ne', nary_result_ne']))

/-- The selector, the packed rows, x and the group table as the launch finds them on core `c`, at their literal types. -/
abbrev selArr (c : Dev nD) : S128x768.Idx → EReal := V m c main_v32
abbrev xpArr (c : Dev nD) : S262144x128.Idx → EReal := V m c main_v33
abbrev xArr (c : Dev nD) : S1048576x32.Idx → EReal := m ((c : Thread nD τ).loc main_arg0)
abbrev grpArr (c : Dev nD) : IVec S64x3 32 := m ((c : Thread nD τ).loc main_arg1)

/-- The selector as the launch finds it: the host operations' results composed. -/
theorem sel_eq (c : Dev nD) : selArr m c
    = selOf (cat3 (slab (col0 (clipT (grpArr m c)))) (slab (col1 (clipT (grpArr m c)))) (slab (col2 (clipT (grpArr m c))))) zblk := by
  dsimp only [selArr, V, V0]
  simp only [hostOps0, hostOps0_1, hostOps0_2, List.flatten_cons, List.flatten_nil, List.append_nil, List.cons_append, List.nil_append]
  host_results
  rfl

/-- The packed rows as the launch finds them: x reshaped. -/
theorem xp_eq (c : Dev nD) : xpArr m c = shapeCast S262144x128 (xArr m c) shapeCasts_S1048576x32_S262144x128 := by
  dsimp only [xpArr, V, V0]
  simp only [hostOps0, hostOps0_1, hostOps0_2, List.flatten_cons, List.flatten_nil, List.append_nil, List.cons_append, List.nil_append]
  host_results
  rfl

/-! Reading the pieces at an index. -/

/-- Four rows of blocks one above the other: row 32·m' + j' is row j' of the m'-th. -/
theorem rows4_apply (r : Fin 4 → FVec Ideal S32x768 .f32) (j : Fin 128) (cc : Fin 768) (m' : Fin 4) (j' : Fin 32)
    (hj : j.val = 32 * m'.val + j'.val) :
    rows4 (r 0) (r 1) (r 2) (r 3) (ix2 j cc) = r m' (ix2 j' cc) := by
  unfold rows4
  have hi : ∀ b : Fin S32x768.rank, b.cast (rfl : S32x768.rank = S128x768.rank) ≠ (0 : Fin S128x768.rank) →
      ((ix2 j' cc : S32x768.Idx) b).val = ((ix2 j cc : S128x768.Idx) (b.cast rfl)).val := fun b hb =>
    match b, hb with
    | ⟨0, _⟩, hb => absurd rfl hb
    | ⟨1, _⟩, _ => rfl
  have key := fun k hk x₁ hxk pre hpre ha =>
    concatenate_apply_piece (α := EReal) (t := S128x768) 0
      [⟨S32x768, r 0⟩, ⟨S32x768, r 1⟩, ⟨S32x768, r 2⟩, ⟨S32x768, r 3⟩]
      concatenates_S32x768_S32x768_S32x768_S32x768_S128x768_d0 (ix2 j cc) k hk S32x768 x₁ hxk rfl pre hpre (ix2 j' cc) hi ha
  match m', hj with
  | ⟨0, _⟩, hj =>
    exact key 0 (by show 0 < 4; decide) (r 0) rfl 0 rfl (by show 0 + j'.val = j.val; have : j.val = 32 * 0 + j'.val := hj; omega)
  | ⟨1, _⟩, hj =>
    exact key 1 (by show 1 < 4; decide) (r 1) rfl 32 rfl (by show 32 + j'.val = j.val; have : j.val = 32 * 1 + j'.val := hj; omega)
  | ⟨2, _⟩, hj =>
    exact key 2 (by show 2 < 4; decide) (r 2) rfl 64 rfl (by show 64 + j'.val = j.val; have : j.val = 32 * 2 + j'.val := hj; omega)
  | ⟨3, _⟩, hj =>
    exact key 3 (by show 3 < 4; decide) (r 3) rfl 96 rfl (by show 96 + j'.val = j.val; have : j.val = 32 * 3 + j'.val := hj; omega)

/-- Four blocks side by side: column 192·mm + q is column q of the mm-th. -/
theorem rowOf_apply (p : Fin 4 → FVec Ideal S32x192 .f32) (j' : Fin 32) (cc : Fin 768) (mm : Fin 4) (q : Fin 192)
    (hc : cc.val = 192 * mm.val + q.val) :
    rowOf (p 0) (p 1) (p 2) (p 3) (ix2 j' cc) = p mm (ix2 j' q) := by
  unfold rowOf
  have hi : ∀ b : Fin S32x192.rank, b.cast (rfl : S32x192.rank = S32x768.rank) ≠ (1 : Fin S32x768.rank) →
      ((ix2 j' q : S32x192.Idx) b).val = ((ix2 j' cc : S32x768.Idx) (b.cast rfl)).val := fun b hb =>
    match b, hb with
    | ⟨0, _⟩, _ => rfl
    | ⟨1, _⟩, hb => absurd rfl hb
  have key := fun k hk x₁ hxk pre hpre ha =>
    concatenate_apply_piece (α := EReal) (t := S32x768) 1
      [⟨S32x192, p 0⟩, ⟨S32x192, p 1⟩, ⟨S32x192, p 2⟩, ⟨S32x192, p 3⟩]
      concatenates_S32x192_S32x192_S32x192_S32x192_S32x768_d1 (ix2 j' cc) k hk S32x192 x₁ hxk rfl pre hpre (ix2 j' q) hi ha
  match mm, hc with
  | ⟨0, _⟩, hc =>
    exact key 0 (by show 0 < 4; decide) (p 0) rfl 0 rfl (by show 0 + q.val = cc.val; have : cc.val = 192 * 0 + q.val := hc; omega)
  | ⟨1, _⟩, hc =>
    exact key 1 (by show 1 < 4; decide) (p 1) rfl 192 rfl (by show 192 + q.val = cc.val; have : cc.val = 192 * 1 + q.val := hc; omega)
  | ⟨2, _⟩, hc =>
    exact key 2 (by show 2 < 4; decide) (p 2) rfl 384 rfl (by show 384 + q.val = cc.val; have : cc.val = 192 * 2 + q.val := hc; omega)
  | ⟨3, _⟩, hc =>
    exact key 3 (by show 3 < 4; decide) (p 3) rfl 576 rfl (by show 576 + q.val = cc.val; have : cc.val = 192 * 3 + q.val := hc; omega)

/-- Three slabs side by side: column 64·k + g is column g of the k-th. -/
theorem cat3_apply (s : Fin 3 → FVec Ideal S32x64 .f32) (j' : Fin 32) (q : Fin 192) (k : Fin 3) (g : Fin 64)
    (hq : q.val = 64 * k.val + g.val) :
    cat3 (s 0) (s 1) (s 2) (ix2 j' q) = s k (ix2 j' g) := by
  unfold cat3
  have hi : ∀ b : Fin S32x64.rank, b.cast (rfl : S32x64.rank = S32x192.rank) ≠ (1 : Fin S32x192.rank) →
      ((ix2 j' g : S32x64.Idx) b).val = ((ix2 j' q : S32x192.Idx) (b.cast rfl)).val := fun b hb =>
    match b, hb with
    | ⟨0, _⟩, _ => rfl
    | ⟨1, _⟩, hb => absurd rfl hb
  have key := fun n hn x₁ hxk pre hpre ha =>
    concatenate_apply_piece (α := EReal) (t := S32x192) 1
      [⟨S32x64, s 0⟩, ⟨S32x64, s 1⟩, ⟨S32x64, s 2⟩]
      concatenates_S32x64_S32x64_S32x64_S32x192_d1 (ix2 j' q) n hn S32x64 x₁ hxk rfl pre hpre (ix2 j' g) hi ha
  match k, hq with
  | ⟨0, _⟩, hq =>
    exact key 0 (by show 0 < 3; decide) (s 0) rfl 0 rfl (by show 0 + g.val = q.val; have : q.val = 64 * 0 + g.val := hq; omega)
  | ⟨1, _⟩, hq =>
    exact key 1 (by show 1 < 3; decide) (s 1) rfl 64 rfl (by show 64 + g.val = q.val; have : q.val = 64 * 1 + g.val := hq; omega)
  | ⟨2, _⟩, hq =>
    exact key 2 (by show 2 < 3; decide) (s 2) rfl 128 rfl (by show 128 + g.val = q.val; have : q.val = 64 * 2 + g.val := hq; omega)

/-- The zero block is 0 everywhere. -/
theorem zblk_apply (i : S32x192.Idx) : zblk i = 0 := by
  show Ideal.ofBits .f32 0x00000000#32 = 0
  exact Ideal.ofBits_zero_f32

/-- The clip, read at an index. -/
theorem clipT_apply (grp : IVec S64x3 32) (g : Fin 64) (k : Fin 3) :
    clipT grp (ix2 g k) = IntOp.minsi 31#32 (IntOp.maxsi 0#32 (grp (ix2 g k))) := rfl

/-- On a word in range the clip is the identity. -/
theorem clip_id (w : BitVec 32) (h0 : 0 ≤ w.toInt) (h1 : w.toInt < 32) : IntOp.minsi 31#32 (IntOp.maxsi 0#32 w) = w := by
  have e0 : (0#32 : BitVec 32).toInt = 0 := by decide
  have e31 : (31#32 : BitVec 32).toInt = 31 := by decide
  have h2 : w.slt 0#32 = false := by
    rw [BitVec.slt, e0]; exact decide_eq_false (by omega)
  have h3 : (31#32 : BitVec 32).slt w = false := by
    rw [BitVec.slt, e31]; exact decide_eq_false (by omega)
  unfold IntOp.minsi IntOp.maxsi
  rw [h2]
  simp only [Bool.false_eq_true, if_false]
  rw [h3]
  simp only [Bool.false_eq_true, if_false]

/-- The columns of a table as vectors, read at an index. -/
theorem col0_apply (t : IVec S64x3 32) (g : Fin 64) : col0 t (ix1 g) = t (ix2 g 0) := by
  unfold col0
  refine (shapeCast_apply _ _ (ix1 g) (ix2 g 0) ?_).trans (extractStridedSlice_apply _ t _ (ix2 g 0) (ix2 g 0) ?_)
  · rw [Shape.rowMajor_val_two, Shape.rowMajor_val_one]; show g.val * 1 + 0 = g.val; omega
  · intro a; match a with
    | ⟨0, _⟩ => show g.val = 0 + g.val; omega
    | ⟨1, _⟩ => rfl
theorem col1_apply (t : IVec S64x3 32) (g : Fin 64) : col1 t (ix1 g) = t (ix2 g 1) := by
  unfold col1
  refine (shapeCast_apply _ _ (ix1 g) (ix2 g 0) ?_).trans (extractStridedSlice_apply _ t _ (ix2 g 0) (ix2 g 1) ?_)
  · rw [Shape.rowMajor_val_two, Shape.rowMajor_val_one]; show g.val * 1 + 0 = g.val; omega
  · intro a; match a with
    | ⟨0, _⟩ => show g.val = 0 + g.val; omega
    | ⟨1, _⟩ => rfl
theorem col2_apply (t : IVec S64x3 32) (g : Fin 64) : col2 t (ix1 g) = t (ix2 g 2) := by
  unfold col2
  refine (shapeCast_apply _ _ (ix1 g) (ix2 g 0) ?_).trans (extractStridedSlice_apply _ t _ (ix2 g 0) (ix2 g 2) ?_)
  · rw [Shape.rowMajor_val_two, Shape.rowMajor_val_one]; show g.val * 1 + 0 = g.val; omega
  · intro a; match a with
    | ⟨0, _⟩ => show g.val = 0 + g.val; omega
    | ⟨1, _⟩ => rfl

/-- The row number as a word equals a word exactly when it is the word's value. -/
theorem ofNat_eq_iff (n : Nat) (hn : n < 32) (w : BitVec 32) : BitVec.ofNat 32 n = w ↔ n = w.toNat := by
  constructor
  · intro h; rw [← h, BitVec.toNat_ofNat]; omega
  · intro h; apply BitVec.eq_of_toNat_eq; rw [BitVec.toNat_ofNat, ← h]; omega

/-- A slab's entry (j', g): 1 when the row number j' is the g-th word, else 0. -/
theorem slab_apply (v : IVec S64 32) (j' : Fin 32) (g : Fin 64) :
    slab v (ix2 j' g) = if j'.val = (v (ix1 g)).toNat then (1 : EReal) else 0 := by
  have eA : broadcastInDim S32x64 ![0, 1] bcast_S32x1_S32x64_0_1
      (broadcastInDim S32x1 ![0] bcast_S32_S32x1_0 (iotaInDim S32 32 0)) (ix2 j' g) = BitVec.ofNat 32 j'.val := by
    refine (broadcastInDim_apply _ _ _ (ix2 j' g) (ix2 j' 0) ?_).trans ((broadcastInDim_apply _ _ _ (ix2 j' 0) (ix1 j') ?_).trans rfl)
    · intro a; match a with
      | ⟨0, _⟩ => rfl
      | ⟨1, _⟩ => rfl
    · intro a; match a with
      | ⟨0, _⟩ => rfl
  have eB : broadcastInDim S32x64 ![0, 1] bcast_S1x64_S32x64_0_1 (broadcastInDim S1x64 ![1] bcast_S64_S1x64_1 v) (ix2 j' g) = v (ix1 g) := by
    refine (broadcastInDim_apply _ _ _ (ix2 j' g) (ix2 0 g) ?_).trans (broadcastInDim_apply _ _ _ (ix2 0 g) (ix1 g) ?_)
    · intro a; match a with
      | ⟨0, _⟩ => rfl
      | ⟨1, _⟩ => rfl
    · intro a; match a with
      | ⟨0, _⟩ => rfl
  show (((IntOp.cmpi .eq (broadcastInDim S32x64 ![0, 1] bcast_S32x1_S32x64_0_1
      (broadcastInDim S32x1 ![0] bcast_S32_S32x1_0 (iotaInDim S32 32 0)) (ix2 j' g))
      (broadcastInDim S32x64 ![0, 1] bcast_S1x64_S32x64_0_1 (broadcastInDim S1x64 ![1] bcast_S64_S1x64_1 v) (ix2 j' g))).toNat : ℝ) : EReal) = _
  rw [eA, eB]
  unfold IntOp.cmpi
  by_cases hjw : j'.val = (v (ix1 g)).toNat
  · rw [if_pos hjw, show (BitVec.ofNat 32 j'.val == v (ix1 g)) = true from beq_iff_eq.2 ((ofNat_eq_iff _ j'.isLt _).2 hjw)]
    simp
  · rw [if_neg hjw, show (BitVec.ofNat 32 j'.val == v (ix1 g)) = false from beq_eq_false_iff_ne.2 (fun e => hjw ((ofNat_eq_iff _ j'.isLt _).1 e))]
    simp

/-- The block-diagonal matrix at row 32·m' + j', column 192·mm + q: the block on the diagonal, the other off it. -/
theorem selOf_apply (B Z : FVec Ideal S32x192 .f32) (j : Fin 128) (cc : Fin 768) (m' mm : Fin 4) (j' : Fin 32) (q : Fin 192)
    (hj : j.val = 32 * m'.val + j'.val) (hc : cc.val = 192 * mm.val + q.val) :
    selOf B Z (ix2 j cc) = (if m' = mm then B else Z) (ix2 j' q) := by
  unfold selOf
  refine (rows4_apply (fun n => rowOf (if n = 0 then B else Z) (if n = 1 then B else Z) (if n = 2 then B else Z)
    (if n = 3 then B else Z)) j cc m' j' hj).trans ?_
  exact rowOf_apply (fun n => if m' = n then B else Z) j' cc mm q hc

/-- The three slabs of a table's columns, the k-th at (j', g): 1 when j' is the table's word (g, k), else 0. -/
theorem slabs_apply (t : IVec S64x3 32) (k : Fin 3) (j' : Fin 32) (g : Fin 64) :
    (![slab (col0 t), slab (col1 t), slab (col2 t)] : Fin 3 → FVec Ideal S32x64 .f32) k (ix2 j' g)
      = if j'.val = (t (ix2 g k)).toNat then (1 : EReal) else 0 :=
  match k with
  | ⟨0, _⟩ => (slab_apply (col0 t) j' g).trans (by rw [col0_apply]; rfl)
  | ⟨1, _⟩ => (slab_apply (col1 t) j' g).trans (by rw [col1_apply]; rfl)
  | ⟨2, _⟩ => (slab_apply (col2 t) j' g).trans (by rw [col2_apply]; rfl)

/-- The selector as the launch finds it, at row j and column 192·mm + 64·k + g: 1 when j = 32·mm + groups[g, k], else 0. -/
theorem sel_apply (c : Dev nD) (h : Cert.Spec.InRange (grpArr m c))
    (j : Fin 128) (mm : Fin 4) (k : Fin 3) (g : Fin 64) :
    selArr m c (ix2 j ⟨192 * mm.val + 64 * k.val + g.val, by omega⟩)
      = if j.val = 32 * mm.val + (Cert.Spec.col (grpArr m c (ix2 g k))).val then (1 : EReal) else 0 := by
  obtain ⟨h0, h1⟩ := h g k
  have hcol := Cert.Spec.col_val_of_inRange h0 h1
  have hw : (grpArr m c (ix2 g k)).toNat < 32 := by rw [← hcol]; exact (Cert.Spec.col _).isLt
  rw [hcol, sel_eq,
    selOf_apply _ _ j _ ⟨j.val / 32, by omega⟩ mm ⟨j.val % 32, Nat.mod_lt _ (by decide)⟩ ⟨64 * k.val + g.val, by omega⟩
      (by show j.val = 32 * (j.val / 32) + j.val % 32; omega)
      (by show 192 * mm.val + 64 * k.val + g.val = 192 * mm.val + (64 * k.val + g.val); omega)]
  by_cases hm : (⟨j.val / 32, by omega⟩ : Fin 4) = mm
  · rw [if_pos hm]
    refine (cat3_apply ![slab (col0 (clipT (grpArr m c))), slab (col1 (clipT (grpArr m c))), slab (col2 (clipT (grpArr m c)))]
      ⟨j.val % 32, _⟩ ⟨64 * k.val + g.val, _⟩ k g rfl).trans ?_
    rw [slabs_apply, clipT_apply, clip_id _ h0 h1]
    have hm' : j.val / 32 = mm.val := congrArg Fin.val hm
    show (if j.val % 32 = _ then (1 : EReal) else 0) = _
    by_cases hjw : j.val % 32 = (grpArr m c (ix2 g k)).toNat
    · rw [if_pos hjw, if_pos (by omega)]
    · rw [if_neg hjw, if_neg (by omega)]
  · rw [if_neg hm, zblk_apply]
    have hm' : j.val / 32 ≠ mm.val := fun e => hm (Fin.ext e)
    rw [if_neg (by omega)]

/-- The packed rows as the launch finds them: entry (p, q) is x[4p + q / 32, q % 32]. -/
theorem xp_apply (c : Dev nD) (p : Fin 262144) (q : Fin 128) :
    xpArr m c (ix2 p q) = xArr m c (ix2 ⟨4 * p.val + q.val / 32, by omega⟩ ⟨q.val % 32, Nat.mod_lt _ (by decide)⟩) := by
  rw [xp_eq]
  refine shapeCast_apply _ _ _ _ ?_
  rw [Shape.rowMajor_val_two, Shape.rowMajor_val_two]
  show (4 * p.val + q.val / 32) * 32 + q.val % 32 = p.val * 128 + q.val
  omega

end Cert.KernelIdeal.Sel

end
-- ==== Proof.KernelIdeal.Payload.lean ====
/-
  The body's arithmetic for one 512-row chunk, read at an entry: entry (r, mm) of the stored 512 × 4 value is the
  maximum over the 64 groups g (folded from −∞) of the minimum of the three entries 192·mm + g, 192·mm + 64 + g and
  192·mm + 128 + g of row r of the product of the chunk with the selector.
-/
import proofs.«428628_j64235530879326_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pay

open Cert.KernelIdeal Cert.KernelIdeal.Gen
open Idealize.ShloMosaic Idealize.ShloMosaic.ValueIdx

/-- Entry (r, cc) of the product of a 512 × 128 chunk with the 128 × 768 selector. -/
def dotAt (v8 : Vec Ideal S512x128 .f32) (v0 : Vec Ideal S128x768 .f32) (r : Fin 512) (cc : Fin 768) : EReal :=
  ∑ j : Fin 128, (v8 : S512x128.Idx → EReal) (ix2 r j) * (v0 : S128x768.Idx → EReal) (ix2 j cc)

/-! ## The product at an entry -/

/-- The left operand's row is the result's row. -/
theorem lhs_dot_0 (j : S512x768.Idx) (k : dot_S512x128_S128x768_S512x768_1_0_0_1_n_n.contr.Idx) :
    (dot_S512x128_S128x768_S512x768_1_0_0_1_n_n.lhsIdx j k 0).val = (j 0).val := rfl

/-- The left operand's column is the contracted coordinate. -/
theorem lhs_dot_1 (j : S512x768.Idx) (k : dot_S512x128_S128x768_S512x768_1_0_0_1_n_n.contr.Idx) :
    (dot_S512x128_S128x768_S512x768_1_0_0_1_n_n.lhsIdx j k 1).val = (k ⟨0, by decide⟩).val :=
  DotDims.lhsIdx_val_of_single _ rfl j k

/-- The right operand's row is the contracted coordinate. -/
theorem rhs_dot_0 (j : S512x768.Idx) (k : dot_S512x128_S128x768_S512x768_1_0_0_1_n_n.contr.Idx) :
    (dot_S512x128_S128x768_S512x768_1_0_0_1_n_n.rhsIdx j k 0).val = (k ⟨0, by decide⟩).val :=
  DotDims.rhsIdx_val_of_single _ rfl j k

/-- The right operand's column is the result's column. -/
theorem rhs_dot_1 (j : S512x768.Idx) (k : dot_S512x128_S128x768_S512x768_1_0_0_1_n_n.contr.Idx) :
    (dot_S512x128_S128x768_S512x768_1_0_0_1_n_n.rhsIdx j k 1).val = (j 1).val := rfl

/-- The product into the zero accumulator, read at (r, cc), is the sum over the contracted coordinate. -/
theorem prod_apply (a : FVec Ideal S512x128 .f32) (b : FVec Ideal S128x768 .f32) (r : Fin 512) (cc : Fin 768) :
    (matmul dot_S512x128_S128x768_S512x768_1_0_0_1_n_n none a b (constant (F := Ideal) S512x768 .f32 0x00000000#32)
        : S512x768.Idx → EReal) (ix2 r cc)
      = dotAt a b r cc := by
  show FloatOps.matmul dot_S512x128_S128x768_S512x768_1_0_0_1_n_n none a b _ (ix2 r cc) = _
  rw [Ideal.matmul_constant_zero_apply,
    ← Equiv.sum_comp (contrEquiv1 dot_S512x128_S128x768_S512x768_1_0_0_1_n_n 128 rfl rfl).symm]
  unfold dotAt
  refine Finset.sum_congr rfl fun c _ => ?_
  have c2 := contrEquiv1_symm_val dot_S512x128_S128x768_S512x768_1_0_0_1_n_n 128 rfl rfl c
  have l2 : dot_S512x128_S128x768_S512x768_1_0_0_1_n_n.lhsIdx (ix2 r cc)
      ((contrEquiv1 dot_S512x128_S128x768_S512x768_1_0_0_1_n_n 128 rfl rfl).symm c) = ix2 r c := by
    funext ax; apply Fin.ext
    match ax with
    | ⟨0, _⟩ => exact lhs_dot_0 _ _
    | ⟨1, _⟩ => exact (lhs_dot_1 _ _).trans c2
  have r2 : dot_S512x128_S128x768_S512x768_1_0_0_1_n_n.rhsIdx (ix2 r cc)
      ((contrEquiv1 dot_S512x128_S128x768_S512x768_1_0_0_1_n_n 128 rfl rfl).symm c) = ix2 c cc := by
    funext ax; apply Fin.ext
    match ax with
    | ⟨0, _⟩ => exact (rhs_dot_0 _ _).trans c2
    | ⟨1, _⟩ => exact rhs_dot_1 _ _
  rw [l2, r2]

/-! ## A slab of a column block -/

/-- The slice at column offset `o2` of the slice at column offset `o1`, read at (r, g), is the operand at
    (r, o1 + o2 + g); `m` is the column in between. -/
theorem slab_apply (x : FVec Ideal S512x768 .f32) (o1 o2 : Nat) (h1 : S512x768.Slices ![0, o1] S512x192)
    (h2 : S512x192.Slices ![0, o2] S512x64) (r : Fin 512) (g : Fin 64) (m : Fin 192) (cc : Fin 768)
    (hm : m.val = o2 + g.val) (hcc : cc.val = o1 + m.val) :
    extractStridedSlice S512x64 ![0, o2] (extractStridedSlice S512x192 ![0, o1] x h1) h2 (ix2 r g) = x (ix2 r cc) := by
  refine (extractStridedSlice_apply ![0, o2] _ h2 (ix2 r g) (ix2 r m) fun a => ?_).trans
    (extractStridedSlice_apply ![0, o1] x h1 (ix2 r m) (ix2 r cc) fun a => ?_)
  · match a with
    | ⟨0, _⟩ => show r.val = 0 + r.val; omega
    | ⟨1, _⟩ => show m.val = o2 + g.val; exact hm
  · match a with
    | ⟨0, _⟩ => show r.val = 0 + r.val; omega
    | ⟨1, _⟩ => show cc.val = o1 + m.val; exact hcc

/-! ## One stored column -/

/-- The row index with the lane `g` put back on the reduced axis is (r, g). -/
theorem lift_row (r : Fin 512) (g : Fin 64) :
    reduces_S512x64_S512.lift (ix1 r) g = (ix2 r g : S512x64.Idx) := by
  funext a; apply Fin.ext
  match a with
  | ⟨0, _⟩ => rfl
  | ⟨1, _⟩ => rfl

/-- The 512 × 1 cast of the maximum over the 64 lanes of a 512 × 64 value, read at (r, 0): the fold of `max` from the
    accumulator's value over the row's lanes. -/
theorem rowmax_apply (src : FVec Ideal S512x64 .f32) (hφ : FKind.Formats .f32)
    (hacc : (0xFF800000#32 : BitVec FTy.f32.bits) = FKind.maximumf.neutral .f32 hφ) (r : Fin 512) :
    shapeCast S512x1 (multiReduction (F := Ideal) .maximumf [1] S512 src 0xFF800000#32 reduces_S512x64_S512 hφ hacc)
        shapeCasts_S512_S512x1 (ix2 r (0 : Fin 1))
      = (Finset.univ : Finset (Fin 64)).fold max (Ideal.ofBits .f32 0xFF800000#32) (fun g => src (ix2 r g)) := by
  refine (shapeCast_apply _ shapeCasts_S512_S512x1 (ix2 r (0 : Fin 1)) (ix1 r) ?_).trans ?_
  · rw [Shape.rowMajor_val_one, Shape.rowMajor_val_two]
    show r.val = r.val * 1 + 0
    omega
  have e := Ideal.multiReduction_maximumf_single (s := S512x64) (t := S512) (a := 1) src 0xFF800000#32
    reduces_S512x64_S512 hφ hacc (ix1 r)
  refine e.trans ?_
  show (Finset.univ : Finset (Fin 64)).fold max (Ideal.ofBits .f32 0xFF800000#32)
    (fun g : Fin 64 => src (reduces_S512x64_S512.lift (ix1 r) g)) = _
  refine Finset.fold_congr fun g _ => ?_
  exact congrArg src (lift_row r g)

/-- One column: the 512 × 1 cast of the maximum over the 64 lanes of the minimum of the three slabs of the column block
    at offset `o`, read at (r, 0). -/
theorem col_apply (x : FVec Ideal S512x768 .f32) (o : Nat) (ho : o + 192 ≤ 768) (h : S512x768.Slices ![0, o] S512x192)
    (hφ : FKind.Formats .f32) (hacc : (0xFF800000#32 : BitVec FTy.f32.bits) = FKind.maximumf.neutral .f32 hφ)
    (r : Fin 512) :
    shapeCast S512x1
        (multiReduction (F := Ideal) .maximumf [1] S512
          (minimumf
            (minimumf
              (extractStridedSlice S512x64 ![0, 0] (extractStridedSlice S512x192 ![0, o] x h) slices_S512x192_o0_0_S512x64)
              (extractStridedSlice S512x64 ![0, 64] (extractStridedSlice S512x192 ![0, o] x h) slices_S512x192_o0_64_S512x64))
            (extractStridedSlice S512x64 ![0, 128] (extractStridedSlice S512x192 ![0, o] x h) slices_S512x192_o0_128_S512x64))
          0xFF800000#32 reduces_S512x64_S512 hφ hacc)
        shapeCasts_S512_S512x1 (ix2 r (0 : Fin 1))
      = (Finset.univ : Finset (Fin 64)).fold max (Ideal.ofBits .f32 0xFF800000#32) (fun g =>
          min (min (x (ix2 r ⟨o + g.val, by omega⟩)) (x (ix2 r ⟨o + 64 + g.val, by omega⟩)))
            (x (ix2 r ⟨o + 128 + g.val, by omega⟩))) := by
  refine (rowmax_apply _ hφ hacc r).trans (Finset.fold_congr fun g _ => ?_)
  exact congrArg₂ min
    (congrArg₂ min
      (slab_apply x o 0 h slices_S512x192_o0_0_S512x64 r g ⟨g.val, by omega⟩ ⟨o + g.val, by omega⟩
        (by show g.val = 0 + g.val; omega) rfl)
      (slab_apply x o 64 h slices_S512x192_o0_64_S512x64 r g ⟨64 + g.val, by omega⟩ ⟨o + 64 + g.val, by omega⟩
        rfl (by show o + 64 + g.val = o + (64 + g.val); omega)))
    (slab_apply x o 128 h slices_S512x192_o0_128_S512x64 r g ⟨128 + g.val, by omega⟩ ⟨o + 128 + g.val, by omega⟩
      rfl (by show o + 128 + g.val = o + (128 + g.val); omega))

/-! ## The four columns side by side -/

/-- Four 512 × 1 columns side by side, read at (r, mm): column `mm` at (r, 0). -/
theorem concat4_apply (c0 c1 c2 c3 : FVec Ideal S512x1 .f32) (r : Fin 512) (mm : Fin 4) :
    concatenate S512x4 1 [⟨S512x1, c0⟩, ⟨S512x1, c1⟩, ⟨S512x1, c2⟩, ⟨S512x1, c3⟩]
        concatenates_S512x1_S512x1_S512x1_S512x1_S512x4_d1 (ix2 r mm)
      = (![c0, c1, c2, c3] mm) (ix2 r (0 : Fin 1)) := by
  match mm with
  | ⟨0, _⟩ =>
    refine concatenate_apply_piece (t := S512x4) (1 : Fin S512x4.rank) ([⟨S512x1, c0⟩, ⟨S512x1, c1⟩, ⟨S512x1, c2⟩, ⟨S512x1, c3⟩] : List ((s : Shape) × (s.Idx → Ideal .f32)))
      concatenates_S512x1_S512x1_S512x1_S512x1_S512x4_d1 _ 0 (by show 0 < 4; omega) S512x1 c0 rfl rfl 0 rfl (ix2 r (0 : Fin 1)) ?_ rfl
    intro b hb
    match b with
    | ⟨0, _⟩ => rfl
    | ⟨1, _⟩ => exact absurd (Fin.ext rfl) hb
  | ⟨1, _⟩ =>
    refine concatenate_apply_piece (t := S512x4) (1 : Fin S512x4.rank) ([⟨S512x1, c0⟩, ⟨S512x1, c1⟩, ⟨S512x1, c2⟩, ⟨S512x1, c3⟩] : List ((s : Shape) × (s.Idx → Ideal .f32)))
      concatenates_S512x1_S512x1_S512x1_S512x1_S512x4_d1 _ 1 (by show 1 < 4; omega) S512x1 c1 rfl rfl 1 rfl (ix2 r (0 : Fin 1)) ?_ rfl
    intro b hb
    match b with
    | ⟨0, _⟩ => rfl
    | ⟨1, _⟩ => exact absurd (Fin.ext rfl) hb
  | ⟨2, _⟩ =>
    refine concatenate_apply_piece (t := S512x4) (1 : Fin S512x4.rank) ([⟨S512x1, c0⟩, ⟨S512x1, c1⟩, ⟨S512x1, c2⟩, ⟨S512x1, c3⟩] : List ((s : Shape) × (s.Idx → Ideal .f32)))
      concatenates_S512x1_S512x1_S512x1_S512x1_S512x4_d1 _ 2 (by show 2 < 4; omega) S512x1 c2 rfl rfl 2 rfl (ix2 r (0 : Fin 1)) ?_ rfl
    intro b hb
    match b with
    | ⟨0, _⟩ => rfl
    | ⟨1, _⟩ => exact absurd (Fin.ext rfl) hb
  | ⟨3, _⟩ =>
    refine concatenate_apply_piece (t := S512x4) (1 : Fin S512x4.rank) ([⟨S512x1, c0⟩, ⟨S512x1, c1⟩, ⟨S512x1, c2⟩, ⟨S512x1, c3⟩] : List ((s : Shape) × (s.Idx → Ideal .f32)))
      concatenates_S512x1_S512x1_S512x1_S512x1_S512x4_d1 _ 3 (by show 3 < 4; omega) S512x1 c3 rfl rfl 3 rfl (ix2 r (0 : Fin 1)) ?_ rfl
    intro b hb
    match b with
    | ⟨0, _⟩ => rfl
    | ⟨1, _⟩ => exact absurd (Fin.ext rfl) hb

/-- Column 0 of four 512 × 1 columns side by side. -/
theorem concat4_at0 (c0 c1 c2 c3 : FVec Ideal S512x1 .f32) (r : Fin 512) (h : 0 < 4) :
    concatenate S512x4 1 [⟨S512x1, c0⟩, ⟨S512x1, c1⟩, ⟨S512x1, c2⟩, ⟨S512x1, c3⟩]
        concatenates_S512x1_S512x1_S512x1_S512x1_S512x4_d1 (ix2 r (⟨0, h⟩ : Fin 4))
      = c0 (ix2 r (0 : Fin 1)) :=
  concat4_apply c0 c1 c2 c3 r ⟨0, h⟩

/-- Column 1 of four 512 × 1 columns side by side. -/
theorem concat4_at1 (c0 c1 c2 c3 : FVec Ideal S512x1 .f32) (r : Fin 512) (h : 1 < 4) :
    concatenate S512x4 1 [⟨S512x1, c0⟩, ⟨S512x1, c1⟩, ⟨S512x1, c2⟩, ⟨S512x1, c3⟩]
        concatenates_S512x1_S512x1_S512x1_S512x1_S512x4_d1 (ix2 r (⟨1, h⟩ : Fin 4))
      = c1 (ix2 r (0 : Fin 1)) :=
  concat4_apply c0 c1 c2 c3 r ⟨1, h⟩

/-- Column 2 of four 512 × 1 columns side by side. -/
theorem concat4_at2 (c0 c1 c2 c3 : FVec Ideal S512x1 .f32) (r : Fin 512) (h : 2 < 4) :
    concatenate S512x4 1 [⟨S512x1, c0⟩, ⟨S512x1, c1⟩, ⟨S512x1, c2⟩, ⟨S512x1, c3⟩]
        concatenates_S512x1_S512x1_S512x1_S512x1_S512x4_d1 (ix2 r (⟨2, h⟩ : Fin 4))
      = c2 (ix2 r (0 : Fin 1)) :=
  concat4_apply c0 c1 c2 c3 r ⟨2, h⟩

/-- Column 3 of four 512 × 1 columns side by side. -/
theorem concat4_at3 (c0 c1 c2 c3 : FVec Ideal S512x1 .f32) (r : Fin 512) (h : 3 < 4) :
    concatenate S512x4 1 [⟨S512x1, c0⟩, ⟨S512x1, c1⟩, ⟨S512x1, c2⟩, ⟨S512x1, c3⟩]
        concatenates_S512x1_S512x1_S512x1_S512x1_S512x4_d1 (ix2 r (⟨3, h⟩ : Fin 4))
      = c3 (ix2 r (0 : Fin 1)) :=
  concat4_apply c0 c1 c2 c3 r ⟨3, h⟩

/-- The stored value at entry (r, mm). -/
theorem pay_apply (v0 : Vec Ideal S128x768 .f32) (v8 : Vec Ideal S512x128 .f32) (r : Fin 512) (mm : Fin 4) :
    (k0_pay1 (F := Ideal) v0 v8 : S512x4.Idx → EReal) (ix2 r mm)
      = (Finset.univ : Finset (Fin 64)).fold max (Ideal.ofBits .f32 0xFF800000#32) (fun g =>
          min (min (dotAt v8 v0 r ⟨192 * mm.val + g.val, by omega⟩) (dotAt v8 v0 r ⟨192 * mm.val + 64 + g.val, by omega⟩))
            (dotAt v8 v0 r ⟨192 * mm.val + 128 + g.val, by omega⟩)) := by
  match mm with
  | ⟨0, hlt⟩ =>
    unfold k0_pay1
    refine (concat4_at0 _ _ _ _ r hlt).trans ?_
    rw [shapeCast_self v0, shapeCast_self v8]
    refine (col_apply _ 0 (by omega) slices_S512x768_o0_0_S512x192 _ _ r).trans ?_
    refine Finset.fold_congr fun g _ => ?_
    exact congrArg₂ min
      (congrArg₂ min (prod_apply _ _ r _) (prod_apply _ _ r _)) (prod_apply _ _ r _)
  | ⟨1, hlt⟩ =>
    unfold k0_pay1
    refine (concat4_at1 _ _ _ _ r hlt).trans ?_
    rw [shapeCast_self v0, shapeCast_self v8]
    refine (col_apply _ 192 (by omega) slices_S512x768_o0_192_S512x192 _ _ r).trans ?_
    refine Finset.fold_congr fun g _ => ?_
    exact congrArg₂ min
      (congrArg₂ min (prod_apply _ _ r _) (prod_apply _ _ r _)) (prod_apply _ _ r _)
  | ⟨2, hlt⟩ =>
    unfold k0_pay1
    refine (concat4_at2 _ _ _ _ r hlt).trans ?_
    rw [shapeCast_self v0, shapeCast_self v8]
    refine (col_apply _ 384 (by omega) slices_S512x768_o0_384_S512x192 _ _ r).trans ?_
    refine Finset.fold_congr fun g _ => ?_
    exact congrArg₂ min
      (congrArg₂ min (prod_apply _ _ r _) (prod_apply _ _ r _)) (prod_apply _ _ r _)
  | ⟨3, hlt⟩ =>
    unfold k0_pay1
    refine (concat4_at3 _ _ _ _ r hlt).trans ?_
    rw [shapeCast_self v0, shapeCast_self v8]
    refine (col_apply _ 576 (by omega) slices_S512x768_o0_576_S512x192 _ _ r).trans ?_
    refine Finset.fold_congr fun g _ => ?_
    exact congrArg₂ min
      (congrArg₂ min (prod_apply _ _ r _) (prod_apply _ _ r _)) (prod_apply _ _ r _)

end Cert.KernelIdeal.Pay

end
-- ==== Proof.KernelIdeal.Value.lean ====
/-
  The kernel's result as a function of the two argument arrays. At grid point t the output block's entry (R, mm) is,
  by the body's arithmetic, the maximum over the groups g of the minimum over the slots k of row R of the packed block
  times column 192·mm + 64·k + g of the selector. That column is the indicator of row 32·mm + groups[g, k], so the
  product is entry 32·mm + groups[g, k] of the packed row, which is x[4·(4096t + R) + mm, groups[g, k]]: the entry is
  the common function at batch row 4·(4096t + R) + mm. The 64 blocks tile the 262144 × 4 array, and the reshape after
  the launch lays its row-major entries out as the 1048576 × 1 result.
-/
import proofs.«428628_j64235530879326_3_alg».proof.Proof.KernelIdeal.Pieces
import proofs.«428628_j64235530879326_3_alg».proof.Proof.KernelIdeal.Selector
import proofs.«428628_j64235530879326_3_alg».proof.Proof.KernelIdeal.Payload
import proofs.«428628_j64235530879326_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr Cert.KernelIdeal.Sel Cert.KernelIdeal.Pay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A sum against an indicator picks one term (on the extended reals a product with 0 is 0, whatever the other factor). -/
theorem onehot_sum (a s : Fin 128 → EReal) (j0 : Fin 128) (hs : ∀ j : Fin 128, s j = if j.val = j0.val then (1 : EReal) else 0) :
    ∑ j : Fin 128, a j * s j = a j0 := by
  rw [Finset.sum_eq_single j0]
  · rw [hs j0, if_pos rfl, mul_one]
  · intro j _ hj; rw [hs j, if_neg (fun h => hj (Fin.ext h)), mul_zero]
  · intro h; exact absurd (Finset.mem_univ _) h

theorem t_lt (t : Fin cfg0.N) : t.val < 64 := lt_of_lt_of_eq t.isLt N_0
theorem k_lt (k : Fin k0_t1_loop.trips) : k.val < 8 := lt_of_lt_of_eq k.isLt trips_eq

/-- The printed index maps over the grid: the packed rows' and the output's block index is the point, the selector's is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The packed rows' block at point t is rows 4096t … 4096t + 4095 of the packed array. -/
theorem iblk0_apply (c : Dev nD) (t : Fin cfg0.N) (R : Fin 4096) (q : Fin 128) :
    (iblk m c 0 t : S4096x128.Idx → EReal) (ix2 R q)
      = xpArr m c (ix2 ⟨4096 * t.val + R.val, by have := t_lt t; omega⟩ q) := by
  obtain ⟨e0, e1, -⟩ := idx_facts t
  unfold iblk
  rw [View.read_apply]
  show V m c main_v33 _ = V m c main_v33 _
  congr 1
  funext a; apply Fin.ext
  match a with
  | ⟨0, _⟩ => show win0_0.index t (0 : Fin 2) * 4096 + 1 * R.val = 4096 * t.val + R.val; rw [e0]; omega
  | ⟨1, _⟩ => show win0_0.index t (1 : Fin 2) * 128 + 1 * q.val = q.val; rw [e1]; omega

/-- The selector's block at any point is the whole selector. -/
theorem iblk1_apply (c : Dev nD) (t : Fin cfg0.N) (j : Fin 128) (cc : Fin 768) :
    (iblk m c 1 t : S128x768.Idx → EReal) (ix2 j cc) = selArr m c (ix2 j cc) := by
  obtain ⟨-, -, e0, e1, -⟩ := idx_facts t
  unfold iblk
  rw [View.read_apply]
  show V m c main_v32 _ = V m c main_v32 _
  congr 1
  funext a; apply Fin.ext
  match a with
  | ⟨0, _⟩ => show win0_1.index t (0 : Fin 2) * 128 + 1 * j.val = j.val; rw [e0]; omega
  | ⟨1, _⟩ => show win0_1.index t (1 : Fin 2) * 768 + 1 * cc.val = cc.val; rw [e1]; omega

/-- The launch's output array as it should end: entry (P, mm) is the common function at batch row 4P + mm. -/
def Gp (c : Dev nD) : S262144x4.Idx → EReal := fun j =>
  Cert.Spec.G (xArr m c) (grpArr m c) (ix2 ⟨4 * (j 0).val + (j 1).val, by have := idx2_lt0 j; have := idx2_lt1 j; omega⟩ ⟨0, Nat.one_pos⟩)

/-- One product entry: row r of trip k's chunk of point t's block, against the selector's column for (mm, s, g), is
    feature (g, s) of batch row 4·(4096t + 512k + r) + mm. -/
theorem dot_feat (c : Dev nD) (h : Cert.Spec.InRange (grpArr m c)) (t : Fin cfg0.N) (k : Fin k0_t1_loop.trips)
    (r : Fin 512) (mm : Fin 4) (s : Fin 3) (g : Fin 64) :
    dotAt (View.ld (iblk m c 0 t) (Rect.unit (s := S4096x128) (k0_off1 k) S512x128.size (k0_off1_inb k))) (iblk m c 1 t) r
        ⟨192 * mm.val + 64 * s.val + g.val, by omega⟩
      = Cert.Spec.feat (xArr m c) (grpArr m c)
          ⟨4 * (4096 * t.val + 512 * k.val + r.val) + mm.val, by have := t_lt t; have := k_lt k; omega⟩ g s := by
  have hk : k.val < 8 := k_lt k
  have ht := t_lt t
  set cl := Cert.Spec.col (grpArr m c (ix2 g s)) with hcl
  have hcl32 : cl.val < 32 := cl.isLt
  unfold dotAt
  rw [onehot_sum _ _ ⟨32 * mm.val + cl.val, by omega⟩ (fun j => by
    rw [iblk1_apply]; exact sel_apply m c h j mm s g)]
  -- the picked entry of the chunk is the packed array's, which is x's
  show (iblk m c 0 t : S4096x128.Idx → EReal) ((Rect.unit (s := S4096x128) (k0_off1 k) S512x128.size (k0_off1_inb k)).idx (ix2 r ⟨32 * mm.val + cl.val, by omega⟩)) = _
  have e : (Rect.unit (s := S4096x128) (k0_off1 k) S512x128.size (k0_off1_inb k)).idx (ix2 r ⟨32 * mm.val + cl.val, by omega⟩)
      = ix2 (⟨512 * k.val + r.val, by omega⟩ : Fin 4096) (⟨32 * mm.val + cl.val, by omega⟩ : Fin 128) := by
    funext a; apply Fin.ext
    have ho := k0_off1_eq k
    match a with
    | ⟨0, _⟩ => show k0_off1 k 0 + 1 * r.val = 512 * k.val + r.val; rw [ho]; show 512 * k.val + 1 * r.val = _; omega
    | ⟨1, _⟩ => show k0_off1 k 1 + 1 * (32 * mm.val + cl.val) = 32 * mm.val + cl.val; rw [ho]; show 0 + 1 * (32 * mm.val + cl.val) = _; omega
  rw [e, iblk0_apply, xp_apply]
  unfold Cert.Spec.feat
  show xArr m c _ = xArr m c _
  congr 1
  funext a; apply Fin.ext
  match a with
  | ⟨0, _⟩ => show 4 * (4096 * t.val + (512 * k.val + r.val)) + (32 * mm.val + cl.val) / 32 = 4 * (4096 * t.val + 512 * k.val + r.val) + mm.val; omega
  | ⟨1, _⟩ => show (32 * mm.val + cl.val) % 32 = cl.val; omega

/-- The body's arithmetic on trip k's rows of point t's blocks is block t of `Gp` on those rows. -/
theorem trip_value (c : Dev nD) (h : Cert.Spec.InRange (grpArr m c)) (t : Fin cfg0.N) (k : Fin k0_t1_loop.trips) (x : S512x4.Idx) :
    k0_pay1 (F := Ideal) (iblk m c 1 t) (View.ld (iblk m c 0 t) (Rect.unit (s := S4096x128) (k0_off1 k) S512x128.size (k0_off1_inb k))) x
      = ((cfg0.win 2).blk t).view.read (Elt Ideal) (Gp m c) ((Rect.unit (s := S4096x4) (k0_off2 k) S512x4.size (k0_off2_inb k)).emb x) := by
  have hk : k.val < 8 := k_lt k
  have ht := t_lt t
  obtain ⟨r, mm, rfl⟩ : ∃ (r : Fin 512) (mm : Fin 4), x = ix2 r mm := ⟨x 0, x 1, eq_ix2 x⟩
  obtain ⟨-, -, -, -, e0, e1⟩ := idx_facts t
  rw [View.read_apply]
  have e : ((cfg0.win 2).blk t).view.emb ((Rect.unit (s := S4096x4) (k0_off2 k) S512x4.size (k0_off2_inb k)).emb (ix2 r mm))
      = ix2 (⟨4096 * t.val + 512 * k.val + r.val, by omega⟩ : Fin 262144) mm := by
    funext a; apply Fin.ext
    have ho := k0_off2_eq k
    match a with
    | ⟨0, _⟩ => show win0_2.index t (0 : Fin 2) * 4096 + 1 * (k0_off2 k 0 + 1 * r.val) = 4096 * t.val + 512 * k.val + r.val
                rw [e0, ho]; show t.val * 4096 + 1 * (512 * k.val + 1 * r.val) = _; omega
    | ⟨1, _⟩ => show win0_2.index t (1 : Fin 2) * 4 + 1 * (k0_off2 k 1 + 1 * mm.val) = mm.val
                rw [e1, ho]; show 0 * 4 + 1 * (0 + 1 * mm.val) = _; omega
  rw [e]
  refine (pay_apply _ _ r mm).trans ?_
  unfold Gp Cert.Spec.G
  congr 1
  funext g
  unfold Cert.Spec.groupMin
  have d0 := dot_feat m c h t k r mm 0 g
  have d1 := dot_feat m c h t k r mm 1 g
  have d2 := dot_feat m c h t k r mm 2 g
  simp only [Fin.val_zero, Fin.val_one, Fin.val_two, Nat.mul_zero, Nat.add_zero, Nat.mul_one] at d0 d1 d2
  rw [d0, d1, d2]

/-- WHAT POINT t WRITES BACK is block t of `Gp`. -/
theorem flushed_eq (c : Dev nD) (h : Cert.Spec.InRange (grpArr m c)) (t : Fin cfg0.N) :
    (dats m 0 c).flushed 2 t = ((cfg0.win 2).blk t).view.read (Elt Ideal) (Gp m c) := by
  show (cfg0.win 2).cut (grid0.coords t) ((dats m 0 c).after 2 t) = _
  rw [after0_2]
  unfold outsAt0
  rw [out_apply c (grid0.coords t) (ms0_0 t) (hs0_0 t) (ms0_1 t) (hs0_1 t) (ms0_2 t) (hs0_2 t) (iblk m c 0 t) (iblk m c 1 t)
    (((cfg0.win 2).blk t).view.read (Elt Ideal) (Gp m c)) (fun k x => trip_value m c h t k x)]

/-- An index of the output array is in point t's block iff each coordinate is in the block's range. -/
theorem mem_blk2 (t : Fin cfg0.N) (i : S262144x4.Idx) :
    i ∈ ((cfg0.win 2).blk t).view.set ↔ ∀ a : Fin 2, win0_2.index t a * S4096x4.size a ≤ (i a).val ∧ (i a).val < win0_2.index t a * S4096x4.size a + S4096x4.size a := by
  show i ∈ ((View.whole main_v34).slice (win0_2.rect t)).set ↔ _
  rw [View.set_slice_whole, Rect.mem_set_unit]
  exact Iff.rfl

/-- THE OUTPUT ARRAY after the launch is `Gp`: row P lies in the block of point P / 4096. -/
theorem final2 (c : Dev nD) (h : Cert.Spec.InRange (grpArr m c)) : (dats m 0 c).arrAt 2 cfg0.N = Gp m c :=
  (dats m 0 c).arrAt_eq_of_cover 2 (Gp m c) (fun t _ => flushed_eq m c h t) fun i => by
    have hi0 : (i 0).val < 262144 := (i 0).isLt
    have hi1 : (i 1).val < 4 := (i 1).isLt
    let t : Fin cfg0.N := ⟨(i 0).val / 4096, by rw [show cfg0.N = 64 from N_0]; omega⟩
    obtain ⟨-, -, -, -, e0, e1⟩ := idx_facts t
    refine ⟨t, flush0_2 t, ?_⟩
    rw [mem_blk2]
    intro a
    match a with
    | ⟨0, _⟩ => show win0_2.index t (0 : Fin 2) * 4096 ≤ (i 0).val ∧ (i 0).val < win0_2.index t (0 : Fin 2) * 4096 + 4096
                rw [e0]; show (i 0).val / 4096 * 4096 ≤ (i 0).val ∧ (i 0).val < (i 0).val / 4096 * 4096 + 4096; omega
    | ⟨1, _⟩ => show win0_2.index t (1 : Fin 2) * 4 ≤ (i 1).val ∧ (i 1).val < win0_2.index t (1 : Fin 2) * 4 + 4
                rw [e1]; omega

end Cert.KernelIdeal.Val

end
-- ==== Proof.KernelIdeal.Result.lean ====
/-
  The kernel program's run, read: the result buffer ends at the common function of the argument arrays. The reshape after
  the launch reads the 262144 × 4 output array in row-major order, so result row b is entry (b / 4, b % 4) of that array,
  which is the common function at batch row 4·(b / 4) + b % 4 = b.
-/
import proofs.«428628_j64235530879326_3_alg».proof.Proof.KernelIdeal.Value

set_option maxRecDepth 16384

noncomputable section

namespace Cert.KernelIdeal.Val

open Cert.KernelIdeal Cert.KernelIdeal.Gen Cert.KernelIdeal.Fr Cert.KernelIdeal.Sel
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result buffer after the reshape that follows the launch: the launch's output array, reshaped. -/
theorem tail_eq (c : Dev nD) :
    Pipeline.afterTail₀ cfgs (dats m) 0 (V0 m) [hostOps1] c main_v35
      = shapeCast S1048576x1 ((dats m 0 c).arrAt 2 cfg0.N) shapeCasts_S262144x4_S1048576x1 := by
  unfold Pipeline.afterTail₀
  show StableHlo.after hostOps1 _ (Proc.devRef .tc main_v35) = _
  after_results
  rw [show Pipeline.withArrays (cfgs 0).spec c (V0 m c) (fun w => (dats m 0 c).arrAt w (cfgs 0).N) (Proc.devRef .tc main_v34)
      = (dats m 0 c).arrAt 2 cfg0.N from Pipeline.withArrays_arr spec0 launch0.win.arr_inj c _ _ 2]
  rfl

/-- THE RESULT: with every group index in range, the result buffer ends at the common function of x and the group table. -/
theorem value (c : Dev nD) (h : Cert.Spec.InRange (grpArr m c)) :
    (Pipeline.afterTail₀ cfgs (dats m) 0 (V0 m) [hostOps1] c main_v35 : S1048576x1.Idx → EReal)
      = Cert.Spec.G (xArr m c) (grpArr m c) := by
  rw [tail_eq, final2 m c h]
  funext i
  have hi0 : (i 0).val < 1048576 := (i 0).isLt
  have hi1 : (i 1).val < 1 := (i 1).isLt
  refine (shapeCast_apply (Gp m c) shapeCasts_S262144x4_S1048576x1 i
    (ix2 (⟨(i 0).val / 4, by omega⟩ : Fin 262144) (⟨(i 0).val % 4, Nat.mod_lt _ (by decide)⟩ : Fin 4)) ?_).trans ?_
  · rw [Shape.rowMajor_val_two, Shape.rowMajor_val_two]
    show (i 0).val / 4 * 4 + (i 0).val % 4 = (i 0).val * 1 + (i 1).val
    omega
  · unfold Gp
    congr 1
    funext a; apply Fin.ext
    match a with
    | ⟨0, _⟩ => show 4 * ((i 0).val / 4) + (i 0).val % 4 = (i 0).val; omega
    | ⟨1, _⟩ => show 0 = (i 1).val; omega

/-- The run of the kernel's program, read at its result and its arguments. -/
theorem run (h : ∀ c : Dev nD, Cert.Spec.InRange (grpArr m c)) :
    θ_run defs (onTc (τ := τ) (main (F := Ideal))) ⟨m, fun _ => 0, ρ⟩ fun r => ∀ c : Dev nD,
      r.2.mem ((c.tc : Thread nD τ).loc main_v35) = Cert.Spec.G (xArr m c) (grpArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c =>
    ⟨((hr c).2 main_v35 (Pipeline.mem_restRefs_of main_v35 (by decide) (by decide))).trans (value m c (h c)),
     ((hr c).2 main_arg0 (Pipeline.mem_restRefs_of main_arg0 (by decide) (by decide))).trans (W_main_arg0 m (dats m) c),
     ((hr c).2 main_arg1 (Pipeline.mem_restRefs_of main_arg1 (by decide) (by decide))).trans (W_main_arg1 m (dats m) c)⟩)
    (run_main m ρ)

end Cert.KernelIdeal.Val

end
-- ==== Proof.RefIsG.lean ====
/-
  The reference's result is the common function `Cert.Spec.G` of the argument arrays, when every group index is in range.
  Its stages: a negative index wrapped by 32 (none is negative in range), a gather of x's columns at the indices clamped
  into [0, 31] (no clamp binds in range), the minimum over each group's three slots folded from +∞, the maximum over
  the 64 groups folded from −∞, and a trailing unit axis.
-/
import proofs.«428628_j64235530879326_3_alg».proof.Proof.Gen.ReferenceIdeal.Run
import proofs.«428628_j64235530879326_3_alg».proof.Proof.Gen.ReferenceIdeal.Read
import proofs.«428628_j64235530879326_3_alg».proof.Proof.Spec
import Idealize.ShloMosaic.PureOps.Ideal.Laws
import Idealize.ShloMosaic.Lib.ValueIdx
import Idealize.ShloMosaic.Lib.Pipeline.Value

noncomputable section

namespace Cert.ReferenceIdeal.RefIsG

open Cert.ReferenceIdeal Cert.ReferenceIdeal.Gen Cert.ReferenceIdeal.Read
open Idealize.ShloMosaic Idealize.ShloMosaic.ValueIdx

/-- The fold of `min` from +∞ over three coordinates is the minimum of the three values. -/
theorem fold_min3 (f : Fin 3 → EReal) :
    (Finset.univ : Finset (Fin 3)).fold min ⊤ f = min (min (f 0) (f 1)) (f 2) := by
  rw [show (Finset.univ : Finset (Fin 3)) = insert 0 (insert 1 {2}) from by decide]
  rw [Finset.fold_insert (by decide), Finset.fold_insert (by decide), Finset.fold_singleton, min_top_right, min_assoc]

/-- The word 0x7F800000 denotes +∞. -/
theorem ofBits_posInf : Ideal.ofBits .f32 0x7F800000#32 = (⊤ : EReal) := by
  simp [Ideal.ofBits, Ideal.ieee]

/-- In range, no index is negative: the wrapped index is the index itself. -/
theorem v4_apply (grp : IVec S64x3 32) (h : Cert.Spec.InRange grp) (g : Fin 64) (k : Fin 3) :
    val_main_v4 (F := Ideal) grp (ix2 g k) = grp (ix2 g k) := by
  rw [val_main_v4_apply, val_main_v1_apply, val_main_v0_apply, val_main_c_apply]
  have h0 := (h g k).1
  have hc : IntOp.cmpi .slt (grp (ix2 g k)) 0#32 = 0#1 := by
    unfold IntOp.cmpi
    simp only [BitVec.slt]
    have hz : (0#32 : BitVec 32).toInt = 0 := by decide
    rw [hz, decide_eq_false (by omega)]; rfl
  rw [hc, select_zero]

/-- The gather's dimension numbers: offset axis 0 of the result, operand axis 1 collapsed and indexed. -/
abbrev gd : GatherDims S1048576x32 S64x3x1 S1048576x64x3 :=
  gather_S1048576x32_S64x3x1_S1048576x64x3_0_1_n_n_1_2_10485761

/-- The gather at (b, g, k): row b of x at the column the index word groups[g, k] names. -/
theorem v6_apply (x : FVec Ideal S1048576x32 .f32) (grp : IVec S64x3 32) (h : Cert.Spec.InRange grp)
    (b : Fin 1048576) (g : Fin 64) (k : Fin 3) :
    val_main_v6 (F := Ideal) x grp (ix3 b g k) = x (ix2 b (Cert.Spec.col (grp (ix2 g k)))) := by
  unfold val_main_v6 Host.gather
  generalize hidx : val_main_v5 (F := Ideal) grp = idx
  refine congrArg x ?_
  funext a
  refine Fin.ext ?_
  match a with
  | ⟨0, _⟩ =>
    show gd.start (ix3 b g k) idx ⟨0, by decide⟩ + gd.batchCoord (ix3 b g k) ⟨0, by decide⟩
      + gd.offCoord (ix3 b g k) ⟨0, by decide⟩ = b.val
    have hs : gd.start (ix3 b g k) idx ⟨0, by decide⟩ = 0 := by
      unfold GatherDims.start; rw [dif_neg (by decide)]
    have ho : gd.offCoord (ix3 b g k) ⟨0, by decide⟩ = b.val := by
      unfold GatherDims.offCoord; rw [dif_pos (by decide)]; rfl
    rw [GatherDims.batchCoord_eq_zero gd _ _ List.not_mem_nil, hs, ho, Nat.add_zero, Nat.zero_add]
  | ⟨1, _⟩ =>
    show gd.start (ix3 b g k) idx ⟨1, by decide⟩ + gd.batchCoord (ix3 b g k) ⟨1, by decide⟩
      + gd.offCoord (ix3 b g k) ⟨1, by decide⟩ = min (grp (ix2 g k)).toInt.toNat 31
    rw [GatherDims.batchCoord_eq_zero gd _ _ List.not_mem_nil,
      GatherDims.offCoord_eq_zero gd (ix3 b g k) ⟨1, by decide⟩ (by decide)]
    simp only [Nat.add_zero]
    unfold GatherDims.start
    rw [dif_pos (show (⟨1, by decide⟩ : Fin S1048576x32.rank) ∈ gd.startIndexMap from List.mem_singleton.mpr rfl)]
    have hsi : gd.siIdx (ix3 b g k) ⟨List.idxOf (⟨1, by decide⟩ : Fin S1048576x32.rank) gd.startIndexMap,
        List.idxOf_lt_length_iff.2 (List.mem_singleton.mpr rfl)⟩ = ix3 g k 0 := by
      funext c; refine Fin.ext ?_
      match c with
      | ⟨0, _⟩ => rfl
      | ⟨1, _⟩ => rfl
      | ⟨2, _⟩ => rfl
    have h5 : idx_main_v5 (ix3 g k (0 : Fin 1)) = ix2 g k := by
      funext c
      match c with
      | ⟨0, _⟩ => rfl
      | ⟨1, _⟩ => rfl
    rw [hsi, ← hidx, val_main_v5_apply, h5, v4_apply grp h]
    rfl

/-- The index over (b, g) with coordinate k on the dropped last axis. -/
theorem lift_d2 (hR : S1048576x64x3.Reduces [2] S1048576x64) (b : Fin 1048576) (g : Fin 64) (k : Fin 3) :
    hR.lift (ix2 b g) k = ix3 b g k := by
  funext a
  match a with
  | ⟨0, _⟩ => exact Fin.ext rfl
  | ⟨1, _⟩ => exact Fin.ext rfl
  | ⟨2, _⟩ => exact Fin.ext rfl

/-- The index over b with coordinate g on the dropped last axis. -/
theorem lift_d1 (hR : S1048576x64.Reduces [1] S1048576) (j : S1048576.Idx) (g : Fin 64) :
    hR.lift j g = ix2 (⟨(j 0).val, (j 0).isLt⟩ : Fin 1048576) g := by
  funext a
  match a with
  | ⟨0, _⟩ => exact Fin.ext rfl
  | ⟨1, _⟩ => exact Fin.ext rfl

/-- The minimum over a group's three slots, folded from +∞, is the group minimum. -/
theorem v7_apply (x : FVec Ideal S1048576x32 .f32) (grp : IVec S64x3 32) (h : Cert.Spec.InRange grp)
    (b : Fin 1048576) (g : Fin 64) :
    val_main_v7 (F := Ideal) x grp (ix2 b g) = Cert.Spec.groupMin x grp b g := by
  have hR : S1048576x64x3.Reduces [2] S1048576x64 := by decide
  have key : ∀ k : Fin 3, val_main_v6 (F := Ideal) x grp (hR.lift (ix2 b g) k) = Cert.Spec.feat x grp b g k :=
    fun k => by rw [lift_d2, v6_apply x grp h]; rfl
  unfold val_main_v7
  rw [Host.reduce_eq_fold_single FloatOps.minimumf _ _ reducesTo_S1048576x64x3_S1048576x64_d2 hR h_S_, val_main_cst_apply,
    Ideal.ofBits_def, ofBits_posInf]
  generalize hv : val_main_v6 (F := Ideal) x grp = v at key ⊢
  show (Finset.univ : Finset (Fin 3)).fold min ⊤ (fun k : Fin 3 => v (hR.lift (ix2 b g) k)) = _
  rw [funext key]
  exact fold_min3 _

/-- The reference's last stage, as a function of the two argument arrays, is `G`. -/
theorem ref_eq (x : FVec Ideal S1048576x32 .f32) (grp : IVec S64x3 32) (h : Cert.Spec.InRange grp) :
    val_main_v9 (F := Ideal) x grp = Cert.Spec.G x grp := by
  have hR : S1048576x64.Reduces [1] S1048576 := by decide
  funext i
  rw [val_main_v9_apply]
  unfold val_main_v8 Cert.Spec.G
  rw [Host.reduce_eq_fold_single FloatOps.maximumf _ _ reducesTo_S1048576x64_S1048576_d1 hR h_S_, val_main_cst_1_apply,
    Ideal.ofBits_def]
  generalize hv : val_main_v7 (F := Ideal) x grp = v
  show (Finset.univ : Finset (Fin 64)).fold max (Ideal.ofBits .f32 0xFF800000#32)
      (fun g : Fin 64 => v (hR.lift (idx_main_v9 i) g)) = _
  refine congrArg (fun f => (Finset.univ : Finset (Fin 64)).fold max (Ideal.ofBits .f32 0xFF800000#32) f)
    (funext fun g => ?_)
  rw [lift_d1 hR, ← hv, v7_apply x grp h]

end Cert.ReferenceIdeal.RefIsG

end
-- ==== Proof.PreDecode.lean ====
/-
  The precondition read at one lane: the printed predicate is, at index (g, k) of the group table, the conjunction of
  "every entry of x is finite" (one bit, broadcast), 0 ≤ groups[g, k] and groups[g, k] < 32 (signed compares). So a
  memory of which it is all ones has every group index in range.
-/
import proofs.«428628_j64235530879326_3_alg».proof.Proof.Gen.Pre_finite_inputs
import proofs.«428628_j64235530879326_3_alg».proof.Proof.Spec
import Idealize.ShloMosaic.Lib.ValueIdx
import Idealize.ShloMosaic.Lib.ValueLayout

noncomputable section

namespace Cert.Pre_finite_inputs.Decode

open Cert.Pre_finite_inputs
open Idealize.ShloMosaic Idealize.ShloMosaic.ValueIdx

/-- A conjunction of two one-bit words is the bit 1 exactly when both are. -/
theorem andi_one_iff (a b : BitVec 1) : IntOp.andi a b = 1#1 ↔ a = 1#1 ∧ b = 1#1 := by
  revert a b; decide

/-- The word of a truth value is the bit 1 exactly when the value is true. -/
theorem ofBool_one_iff (c : Bool) : BitVec.ofBool c = 1#1 ↔ c = true := by
  cases c <;> decide

/-- All ones of the printed precondition gives every group index in range. -/
theorem inRange_of_pre {F : FTy → Type} [FloatOps F] (x : FVec F S1048576x32 .f32) (grp : IVec S64x3 32)
    (h : Cert.Pre_finite_inputs.fn (F := F) x grp = fun _ => 1#1) : Cert.Spec.InRange grp := by
  intro g k
  have e := congrFun h (ix2 g k)
  unfold Cert.Pre_finite_inputs.fn at e
  simp only [andi, cmpi, broadcastInDim, constantI] at e
  rw [andi_one_iff, andi_one_iff] at e
  obtain ⟨⟨-, h0⟩, h1⟩ := e
  unfold IntOp.cmpi at h0 h1
  rw [ofBool_one_iff] at h0 h1
  simp only [BitVec.sle, BitVec.slt, decide_eq_true_eq] at h0 h1
  have z : (0#32 : BitVec 32).toInt = 0 := by decide
  have t : (32#32 : BitVec 32).toInt = 32 := by decide
  rw [z] at h0
  rw [t] at h1
  exact ⟨h0, h1⟩

end Cert.Pre_finite_inputs.Decode

end
-- ==== Proof.lean ====
/-
  The certificate. The kernel packs four batch rows of x into one 128-lane row, multiplies the packed rows by a
  block-diagonal one-hot selector built from the (clipped) group indices, takes the minimum over each group's three
  slots and the maximum over the 64 groups, and unpacks; the reference gathers x's columns at the group indices, takes
  the same minimum and maximum. Over the extended reals, for group indices in [0, 32), both are the function
  `Cert.Spec.G`: a product with a 0/1 column selects one entry, and in range the kernel's clip, the reference's wrap of
  negative indices and its gather's clamp all leave an index as it is. The precondition states the range beside the
  finiteness of x (which the equality does not use).
  The three frames: each kernel program runs by its launch's proof data and the body's run through its eight-trip loop;
  the reference by its operations read back. The idealized kernel is the kernel's own text read over the extended reals
  (no rewrite was applied), so nothing is owed for it beyond its frame.
-/
import proofs.«428628_j64235530879326_3_alg».proof.Defs
import proofs.«428628_j64235530879326_3_alg».proof.Proof.Gen.Kernel
import proofs.«428628_j64235530879326_3_alg».proof.Proof.Gen.KernelIdeal
import proofs.«428628_j64235530879326_3_alg».proof.Proof.Gen.ReferenceIdeal
import proofs.«428628_j64235530879326_3_alg».proof.Proof.Gen.Pre_finite_inputs
import proofs.«428628_j64235530879326_3_alg».proof.Proof.Gen.ReferenceIdeal.Run
import proofs.«428628_j64235530879326_3_alg».proof.Proof.Gen.ReferenceIdeal.Read
import proofs.«428628_j64235530879326_3_alg».proof.Proof.Kernel.Frame
import proofs.«428628_j64235530879326_3_alg».proof.Proof.KernelIdeal.Frame
import proofs.«428628_j64235530879326_3_alg».proof.Proof.KernelIdeal.Result
import proofs.«428628_j64235530879326_3_alg».proof.Proof.RefIsG
import proofs.«428628_j64235530879326_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := by
  intro m ρ _
  have hrun := Cert.ReferenceIdeal.Value.run (F := Ideal) m ρ
  refine (θ_run Cert.ReferenceIdeal.defs _ _).mono ?_ hrun
  intro r h c
  exact (h c).2

set_option maxRecDepth 100000 in
/-- Both idealized programs end with `Cert.Spec.G` of the (agreeing) argument arrays in their result buffers. -/
theorem algebraic : Cert.algebraic_KernelIdeal_ReferenceIdeal := by
  intro m ρ m' ρ' hpre hagree
  have hr : ∀ c : Dev Cert.KernelIdeal.nD, Cert.Spec.InRange (Cert.KernelIdeal.Sel.grpArr m c) := fun c =>
    Cert.Pre_finite_inputs.Decode.inRange_of_pre _ _ (hpre c)
  refine ⟨fun c => Cert.Spec.G (Cert.KernelIdeal.Sel.xArr m c) (Cert.KernelIdeal.Sel.grpArr m c), Cert.KernelIdeal.Val.run m ρ hr, ?_⟩
  have hrun := Cert.ReferenceIdeal.Value.run (F := Ideal) m' ρ'
  refine (θ_run Cert.ReferenceIdeal.defs _ _).mono ?_ hrun
  intro r h c
  refine ⟨(h c).1.trans ?_, (h c).2⟩
  rw [Cert.ReferenceIdeal.Read.val_main_v9_eq, (hagree c).1, (hagree c).2]
  exact Cert.ReferenceIdeal.RefIsG.ref_eq _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
